-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x576x384 : Shape := ⟨3, ![64, 576, 384]⟩
abbrev S64x4096x2 : Shape := ⟨3, ![64, 4096, 2]⟩
abbrev S2x768 : Shape := ⟨2, ![2, 768]⟩
abbrev S2 : Shape := ⟨1, ![2]⟩
abbrev S_ : Shape := ⟨0, ![]⟩

class Facts : Prop where
  bcast_S_S64x576x384 : S_.BroadcastsInDim S64x576x384 (![] : Fin 0 → Fin S64x576x384.rank)
  reducesTo_S64x576x384_S_d0_1_2 : S64x576x384.ReducesTo [0, 1, 2] S_
  h_S_ : 0 < S_.numel
  bcast_S_S2x768 : S_.BroadcastsInDim S2x768 (![] : Fin 0 → Fin S2x768.rank)
  reducesTo_S2x768_S_d0_1 : S2x768.ReducesTo [0, 1] S_
  bcast_S_S2 : S_.BroadcastsInDim S2 (![] : Fin 0 → Fin S2.rank)
  reducesTo_S2_S_d0 : S2.ReducesTo [0] S_
  bcast_S_S64x4096x2 : S_.BroadcastsInDim S64x4096x2 (![] : Fin 0 → Fin S64x4096x2.rank)
  reducesTo_S64x4096x2_S_d0_1_2 : S64x4096x2.ReducesTo [0, 1, 2] S_

variable [Facts]

def fn_part1 {F : FTy → Type} [FloatOps F] (main_arg1 : IVec S64x4096x2 32) (main_v13 : IVec S_ 1) (main_v15 : IVec S64x4096x2 1) (main_c_5 : IVec S_ 32) : IVec S_ 1 :=
  let main_v16 : IVec S64x4096x2 32 := broadcastInDim S64x4096x2 ![] bcast_S_S64x4096x2 main_c_5
  let main_v17 : IVec S64x4096x2 1 := cmpi .slt main_arg1 main_v16
  let main_v18 : IVec S64x4096x2 1 := andi main_v15 main_v17
  let main_c_6 : IVec S_ 1 := constantI S_ 1 1#1
  let main_v19 : IVec S_ 1 := (fun x v => Host.reduce IntOp.andi x v reducesTo_S64x4096x2_S_d0_1_2 h_S_) main_v18 main_c_6
  let main_v20 : IVec S_ 1 := andi main_v13 main_v19
  main_v20

def fn {F : FTy → Type} [FloatOps F] (main_arg0 : FVec F S64x576x384 .f32) (main_arg1 : IVec S64x4096x2 32) (main_arg2 : FVec F S2x768 .f32) (main_arg3 : FVec F S2 .f32) : IVec S_ 1 :=
  let main_v0 : FVec F S64x576x384 .f32 := Host.absf main_arg0
  let main_cst : FVec F S_ .f32 := constant S_ .f32 0x7F800000#32
  let main_v1 : FVec F S64x576x384 .f32 := broadcastInDim S64x576x384 ![] bcast_S_S64x576x384 main_cst
  let main_v2 : IVec S64x576x384 1 := cmpf .olt main_v0 main_v1
  let main_c : IVec S_ 1 := constantI S_ 1 1#1
  let main_v3 : IVec S_ 1 := (fun x v => Host.reduce IntOp.andi x v reducesTo_S64x576x384_S_d0_1_2 h_S_) main_v2 main_c
  let main_v4 : FVec F S2x768 .f32 := Host.absf main_arg2
  let main_cst_0 : FVec F S_ .f32 := constant S_ .f32 0x7F800000#32
  let main_v5 : FVec F S2x768 .f32 := broadcastInDim S2x768 ![] bcast_S_S2x768 main_cst_0
  let main_v6 : IVec S2x768 1 := cmpf .olt main_v4 main_v5
  let main_c_1 : IVec S_ 1 := constantI S_ 1 1#1
  let main_v7 : IVec S_ 1 := (fun x v => Host.reduce IntOp.andi x v reducesTo_S2x768_S_d0_1 h_S_) main_v6 main_c_1
  let main_v8 : IVec S_ 1 := andi main_v3 main_v7
  let main_v9 : FVec F S2 .f32 := Host.absf main_arg3
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S64x4096x2 32 := broadcastInDim S64x4096x2 ![] bcast_S_S64x4096x2 main_c_4
  let main_v15 : IVec S64x4096x2 1 := cmpi .sge main_arg1 main_v14
  let main_c_5 : IVec S_ 32 := constantI S_ 32 576#32
  fn_part1 (F := F) main_arg1 main_v13 main_v15 main_c_5
-- ==== Kernel.lean ====
abbrev S64x576x384 : Shape := ⟨3, ![64, 576, 384]⟩
abbrev S64x4096x2 : Shape := ⟨3, ![64, 4096, 2]⟩
abbrev S2x768 : Shape := ⟨2, ![2, 768]⟩
abbrev S2 : Shape := ⟨1, ![2]⟩
abbrev S_ : Shape := ⟨0, ![]⟩
abbrev S64x2x4096 : Shape := ⟨3, ![64, 2, 4096]⟩
abbrev S2x384 : Shape := ⟨2, ![2, 384]⟩
abbrev S384x2 : Shape := ⟨2, ![384, 2]⟩
abbrev S384x4 : Shape := ⟨2, ![384, 4]⟩
abbrev S36864x384 : Shape := ⟨2, ![36864, 384]⟩
abbrev S36864x4 : Shape := ⟨2, ![36864, 4]⟩
abbrev S2048x384 : Shape := ⟨2, ![2048, 384]⟩
abbrev S2048x4 : Shape := ⟨2, ![2048, 4]⟩
abbrev S64x576x4 : Shape := ⟨3, ![64, 576, 4]⟩
abbrev S1x576x4 : Shape := ⟨3, ![1, 576, 4]⟩
abbrev S1x2x2048 : Shape := ⟨3, ![1, 2, 2048]⟩
abbrev S576x4 : Shape := ⟨2, ![576, 4]⟩
abbrev S2x2048 : Shape := ⟨2, ![2, 2048]⟩
abbrev S576x2048 : Shape := ⟨2, ![576, 2048]⟩
abbrev S1x2048 : Shape := ⟨2, ![1, 2048]⟩
abbrev S576x2 : Shape := ⟨2, ![576, 2]⟩
abbrev S2x1 : Shape := ⟨2, ![2, 1]⟩

abbrev nBuf : Space → Nat
  | .hbm => 23
  | .vmem => 12
  | .smem => 0
  | _ => 0

abbrev bufTy : (tb : Table) → Fin (tcTables nBuf tb) → BufTy
  | .hbm, ⟨0, _⟩ => ⟨S64x576x384, .f32⟩
  | .hbm, ⟨1, _⟩ => ⟨S64x4096x2, .i32⟩
  | .hbm, ⟨2, _⟩ => ⟨S2x768, .f32⟩
  | .hbm, ⟨3, _⟩ => ⟨S2, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64x4096x2, .i32⟩
  | .hbm, ⟨8, _⟩ => ⟨S64x4096x2, .i32⟩
  | .hbm, ⟨9, _⟩ => ⟨S_, .i32⟩
  | .hbm, ⟨10, _⟩ => ⟨S64x4096x2, .i32⟩
  | .hbm, ⟨11, _⟩ => ⟨S64x4096x2, .i32⟩
  | .hbm, ⟨12, _⟩ => ⟨S64x2x4096, .i32⟩
  | .hbm, ⟨13, _⟩ => ⟨S2x384, .f32⟩
  | .hbm, ⟨14, _⟩ => ⟨S2x384, .f32⟩
  | .hbm, ⟨15, _⟩ => ⟨S384x2, .f32⟩
  | .hbm, ⟨16, _⟩ => ⟨S384x2, .f32⟩
  | .hbm, ⟨17, _⟩ => ⟨S384x4, .f32⟩
  | .hbm, ⟨18, _⟩ => ⟨S36864x384, .f32⟩
  | .hbm, ⟨19, _⟩ => ⟨S36864x4, .f32⟩
  | .hbm, ⟨20, _⟩ => ⟨S64x576x4, .f32⟩
  | .hbm, ⟨21, _⟩ => ⟨S64x2x4096, .f32⟩
  | .hbm, ⟨22, _⟩ => ⟨S64x4096x2, .f32⟩
  | .local _ .vmem, ⟨0, _⟩ => ⟨S2048x384, .f32⟩
  | .local _ .vmem, ⟨1, _⟩ => ⟨S2048x384, .f32⟩
  | .local _ .vmem, ⟨2, _⟩ => ⟨S384x4, .f32⟩
  | .local _ .vmem, ⟨3, _⟩ => ⟨S2048x4, .f32⟩
  | .local _ .vmem, ⟨4, _⟩ => ⟨S2048x4, .f32⟩
  | .local _ .vmem, ⟨5, _⟩ => ⟨S1x576x4, .f32⟩
  | .local _ .vmem, ⟨6, _⟩ => ⟨S1x576x4, .f32⟩
  | .local _ .vmem, ⟨7, _⟩ => ⟨S1x2x2048, .i32⟩
  | .local _ .vmem, ⟨8, _⟩ => ⟨S1x2x2048, .i32⟩
  | .local _ .vmem, ⟨9, _⟩ => ⟨S2, .f32⟩
  | .local _ .vmem, ⟨10, _⟩ => ⟨S1x2x2048, .f32⟩
  | .local _ .vmem, ⟨11, _⟩ => ⟨S1x2x2048, .f32⟩
  | _, _ => ⟨S64x576x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x576x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S64x4096x2 : S_.BroadcastsInDim S64x4096x2 (![] : Fin 0 → Fin S64x4096x2.rank)
  transposes_S64x4096x2_S64x2x4096_0_2_1 : S64x4096x2.Transposes [0, 2, 1] S64x2x4096
  slices_S2x768_S2x384_0_0 : S2x768.Slices ![0, 0] S2x384
  slices_S2x768_S2x384_0_384 : S2x768.Slices ![0, 384] S2x384
  transposes_S2x384_S384x2_1_0 : S2x384.Transposes [1, 0] S384x2
  concatenates_S384x2_S384x2_S384x4_d1 : Shape.Concatenates [S384x2, S384x2] S384x4 1
  shapeCasts_S64x576x384_S36864x384 : S64x576x384.ShapeCasts S36864x384
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  bitsLt_bf16_f32 : FTy.bits .bf16 < FTy.bits .f32
  inb_S384x4_S384x4_0_0 : ∀ a, (![0, 0] : Fin 2 → Nat) a + S384x4.size a ≤ S384x4.size a
  h_S384x4 : 0 < S384x4.numel
  shapeCasts_S384x4_S384x4 : S384x4.ShapeCasts S384x4
  inb_S2048x4_S2048x4_0_0 : ∀ a, (![0, 0] : Fin 2 → Nat) a + S2048x4.size a ≤ S2048x4.size a
  h_S2048x4 : 0 < S2048x4.numel
  shapeCasts_S36864x4_S64x576x4 : S36864x4.ShapeCasts S64x576x4
  inb_S1x576x4_S1x576x4_0_0_0 : ∀ a, (![0, 0, 0] : Fin 3 → Nat) a + S1x576x4.size a ≤ S1x576x4.size a
  h_S1x576x4 : 0 < S1x576x4.numel
  shapeCasts_S1x576x4_S576x4 : S1x576x4.ShapeCasts S576x4
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  iota_S576x2048_d0_w32 : S576x2048.Iotas .tc 32 [0]
  slices_S2x2048_o0_0_S1x2048 : S2x2048.Slices ![0, 0] S1x2048
  slices_S2x2048_o1_0_S1x2048 : S2x2048.Slices ![1, 0] S1x2048
  broadcasts_S1x2048_S576x2048 : S1x2048.Broadcasts S576x2048
  natLt_1_32 : 1 < 32
  slices_S576x4_o0_0_S576x2 : S576x4.Slices ![0, 0] S576x2
  slices_S576x4_o0_2_S576x2 : S576x4.Slices ![0, 2] S576x2
  inb_S2_S2_0 : ∀ a, (![0] : Fin 1 → Nat) a + S2.size a ≤ S2.size a
  h_S2 : 0 < S2.numel
  shapeCasts_S2_S2x1 : S2.ShapeCasts S2x1
  broadcasts_S2x1_S2x2048 : S2x1.Broadcasts S2x2048
  shapeCasts_S2x2048_S1x2x2048 : S2x2048.ShapeCasts S1x2x2048
  transposes_S64x2x4096_S64x4096x2_0_2_1 : S64x2x4096.Transposes [0, 2, 1] S64x4096x2
  dot_S2048x384_S384x4_S2048x4_1_0_0_1_n_n_wf : DotDims.WF S2048x384 S384x4 S2048x4 [1] [0] [0] [1] [] []
  dot_S576x2_S576x2048_S2x2048_0_0_1_1_n_n_wf : DotDims.WF S576x2 S576x2048 S2x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S36864x384.size a
  hwx0_0 : ∀ i : grid0.Coords, EltTy.bits .f32 = 32 ∨ (Rect.block (s := S36864x384) S2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x4.size a ≤ S384x4.size a
  hwx0_1 : ∀ i : grid0.Coords, EltTy.bits .f32 = 32 ∨ (Rect.block (s := S384x4) S384x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S36864x4.size a
  hwx0_2 : ∀ i : grid0.Coords, EltTy.bits .f32 = 32 ∨ (Rect.block (s := S36864x4) S2048x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x576x4.size a ≤ S64x576x4.size a
  hwx1_0 : ∀ i : grid1.Coords, EltTy.bits .f32 = 32 ∨ (Rect.block (s := S64x576x4) S1x576x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048.size a ≤ S64x2x4096.size a
  hwx1_1 : ∀ i : grid1.Coords, EltTy.bits .i32 = 32 ∨ (Rect.block (s := S64x2x4096) S1x2x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2.size a ≤ S2.size a
  hwx1_2 : ∀ i : grid1.Coords, EltTy.bits .f32 = 32 ∨ (Rect.block (s := S2) S2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2x2048.size a ≤ S64x2x4096.size a
  hwx1_3 : ∀ i : grid1.Coords, EltTy.bits .f32 = 32 ∨ (Rect.block (s := S64x2x4096) S1x2x2048.size (cc1_transform_3 i) (hinb1_3 i)).WholeWords (EltTy.packing .f32)

variable [Facts₀]

def dot_S2048x384_S384x4_S2048x4_1_0_0_1_n_n : DotDims S2048x384 S384x4 S2048x4 where
  lhsContracting := [1]
  rhsContracting := [0]
  lhsNonContracting := [0]
  rhsNonContracting := [1]
  lhsBatch := []
  rhsBatch := []
  wf := dot_S2048x384_S384x4_S2048x4_1_0_0_1_n_n_wf
def dot_S576x2_S576x2048_S2x2048_0_0_1_1_n_n : DotDims S576x2 S576x2048 S2x2048 where
  lhsContracting := [0]
  rhsContracting := [0]
  lhsNonContracting := [1]
  rhsNonContracting := [1]
  lhsBatch := []
  rhsBatch := []
  wf := dot_S576x2_S576x2048_S2x2048_0_0_1_1_n_n_wf

abbrev win0_0 : Pipeline.Window sig grid0 :=
  Pipeline.Window.ofSpec (Memref.whole main_v7) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S384x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S1x576x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x2x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x576x384 : Shape := ⟨3, ![64, 576, 384]⟩
abbrev S64x4096x2 : Shape := ⟨3, ![64, 4096, 2]⟩
abbrev S2x768 : Shape := ⟨2, ![2, 768]⟩
abbrev S2 : Shape := ⟨1, ![2]⟩
abbrev S64x8192 : Shape := ⟨2, ![64, 8192]⟩
abbrev S64x8192x1 : Shape := ⟨3, ![64, 8192, 1]⟩
abbrev S_ : Shape := ⟨0, ![]⟩
abbrev S1 : Shape := ⟨1, ![1]⟩
abbrev S1x1x1 : Shape := ⟨3, ![1, 1, 1]⟩
abbrev S64x8192x384 : Shape := ⟨3, ![64, 8192, 384]⟩
abbrev S64x4096x768 : Shape := ⟨3, ![64, 4096, 768]⟩
abbrev S1x1x2 : Shape := ⟨3, ![1, 1, 2]⟩

abbrev nBuf : Space → Nat
  | .hbm => 33
  | .vmem => 0
  | .smem => 0
  | _ => 0

abbrev bufTy : (tb : Table) → Fin (tcTables nBuf tb) → BufTy
  | .hbm, ⟨0, _⟩ => ⟨S64x576x384, .f32⟩
  | .hbm, ⟨1, _⟩ => ⟨S64x4096x2, .i32⟩
  | .hbm, ⟨2, _⟩ => ⟨S2x768, .f32⟩
  | .hbm, ⟨3, _⟩ => ⟨S2, .f32⟩
  | .hbm, ⟨4, _⟩ => ⟨S64x8192, .i32⟩
  | .hbm, ⟨5, _⟩ => ⟨S64x8192x1, .i32⟩
  | .hbm, ⟨6, _⟩ => ⟨S_, .i32⟩
  | .hbm, ⟨7, _⟩ => ⟨S64x8192x1, .i32⟩
  | .hbm, ⟨8, _⟩ => ⟨S64x8192x1, .i1⟩
  | .hbm, ⟨9, _⟩ => ⟨S_, .i32⟩
  | .hbm, ⟨10, _⟩ => ⟨S64x8192x1, .i32⟩
  | .hbm, ⟨11, _⟩ => ⟨S64x8192x1, .i32⟩
  | .hbm, ⟨12, _⟩ => ⟨S64x8192x1, .i32⟩
  | .hbm, ⟨13, _⟩ => ⟨S1, .i32⟩
  | .hbm, ⟨14, _⟩ => ⟨S_, .i32⟩
  | .hbm, ⟨15, _⟩ => ⟨S64x8192x1, .i32⟩
  | .hbm, ⟨16, _⟩ => ⟨S64x8192x1, .i1⟩
  | .hbm, ⟨17, _⟩ => ⟨S1x1x1, .i32⟩
  | .hbm, ⟨18, _⟩ => ⟨S64x8192x1, .i32⟩
  | .hbm, ⟨19, _⟩ => ⟨S64x8192x1, .i1⟩
  | .hbm, ⟨20, _⟩ => ⟨S64x8192x1, .i1⟩
  | .hbm, ⟨21, _⟩ => ⟨S_, .i1⟩
  | .hbm, ⟨22, _⟩ => ⟨S64x8192, .i1⟩
  | .hbm, ⟨23, _⟩ => ⟨S64x8192x384, .f32⟩
  | .hbm, ⟨24, _⟩ => ⟨S64x8192x384, .i1⟩
  | .hbm, ⟨25, _⟩ => ⟨S_, .f32⟩
  | .hbm, ⟨26, _⟩ => ⟨S64x8192x384, .f32⟩
  | .hbm, ⟨27, _⟩ => ⟨S64x8192x384, .f32⟩
  | .hbm, ⟨28, _⟩ => ⟨S64x4096x768, .f32⟩
  | .hbm, ⟨29, _⟩ => ⟨S64x4096x2, .f32⟩
  | .hbm, ⟨30, _⟩ => ⟨S1x1x2, .f32⟩
  | .hbm, ⟨31, _⟩ => ⟨S64x4096x2, .f32⟩
  | .hbm, ⟨32, _⟩ => ⟨S64x4096x2, .f32⟩
  | _, _ => ⟨S64x576x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_c_3 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  shapeCasts_S64x4096x2_S64x8192 : S64x4096x2.ShapeCasts S64x8192
  bcast_S64x8192_S64x8192x1_0_1 : S64x8192.BroadcastsInDim S64x8192x1 (![0, 1] : Fin 2 → Fin S64x8192x1.rank)
  bcast_S_S64x8192x1 : S_.BroadcastsInDim S64x8192x1 (![] : Fin 0 → Fin S64x8192x1.rank)
  bcast_S1_S1x1x1_2 : S1.BroadcastsInDim S1x1x1 (![2] : Fin 1 → Fin S1x1x1.rank)
  bcast_S1x1x1_S64x8192x1_0_1_2 : S1x1x1.BroadcastsInDim S64x8192x1 (![0, 1, 2] : Fin 3 → Fin S64x8192x1.rank)
  reducesTo_S64x8192x1_S64x8192_d2 : S64x8192x1.ReducesTo [2] S64x8192
  h_S_ : 0 < S_.numel
  bcast_S64x8192_S64x8192x384_0_1 : S64x8192.BroadcastsInDim S64x8192x384 (![0, 1] : Fin 2 → Fin S64x8192x384.rank)
  bcast_S_S64x8192x384 : S_.BroadcastsInDim S64x8192x384 (![] : Fin 0 → Fin S64x8192x384.rank)
  shapeCasts_S64x8192x384_S64x4096x768 : S64x8192x384.ShapeCasts S64x4096x768
  bcast_S2_S1x1x2_2 : S2.BroadcastsInDim S1x1x2 (![2] : Fin 1 → Fin S1x1x2.rank)
  bcast_S1x1x2_S64x4096x2_0_1_2 : S1x1x2.BroadcastsInDim S64x4096x2 (![0, 1, 2] : Fin 3 → Fin S64x4096x2.rank)
  gather_S64x576x384_S64x8192x1_S64x8192x384_2_1_0_0_1_2_11384_wf : GatherDims.WF S64x576x384 S64x8192x1 S64x8192x384 [2] [1] [0] [1] [0] 2 ![1, 1, 384]
  dot_S64x4096x768_S2x768_S64x4096x2_2_1_01_0_n_n_wf : DotDims.WF S64x4096x768 S2x768 S64x4096x2 [2] [1] [0, 1] [0] [] []

variable [Facts₀]

def gather_S64x576x384_S64x8192x1_S64x8192x384_2_1_0_0_1_2_11384 : GatherDims S64x576x384 S64x8192x1 S64x8192x384 where
  offsetDims := [2]
  collapsedSliceDims := [1]
  operandBatchingDims := [0]
  startIndicesBatchingDims := [0]
  startIndexMap := [1]
  indexVectorDim := 2
  sliceSizes := ![1, 1, 384]
  wf := gather_S64x576x384_S64x8192x1_S64x8192x384_2_1_0_0_1_2_11384_wf
def dot_S64x4096x768_S2x768_S64x4096x2_2_1_01_0_n_n : DotDims S64x4096x768 S2x768 S64x4096x2 where
  lhsContracting := [2]
  rhsContracting := [1]
  lhsNonContracting := [0, 1]
  rhsNonContracting := [0]
  lhsBatch := []
  rhsBatch := []
  wf := dot_S64x4096x768_S2x768_S64x4096x2_2_1_01_0_n_n_wf

class Facts : Prop extends Facts₀ where

variable [Facts]
-- ==== Proof.Spec.lean ====
/-
  What both programs compute, stated once over the argument arrays: for batch `b`, pair `k` and target `t`,

      out[b, k, t] = Σ_d z[b, r₀, d] · W[t, d]  +  Σ_d z[b, r₁, d] · W[t, 384 + d]  +  bias[t],

  where `r₀`, `r₁` are the rows the pair's two index words name (`rowOf`: the word read as a signed integer,
  a negative one as row 0, capped at the last row 575). The two intermediate arrays of the two-stage computation
  are stated here as well: the projection `proj` (every row of the flattened `z` against a 384 × 4 weight table)
  and the selection `gath` (per pair, the table row an index word names, picked by a sum against an indicator
  column). The one algebraic fact the bridge needs — a sum against an indicator is the selected term — is proved
  at the end, on the extended reals, with no finiteness (`x · 0 = 0` holds for every extended real).
-/
import Idealize.ShloMosaic.PureOps.Ideal
import Idealize.ShloMosaic.Lib.ValueIdx

noncomputable section

namespace Cert.PairHead

open Idealize.ShloMosaic Idealize.ShloMosaic.ValueIdx

/-- The row an index word names: the word as a signed integer, negative words read as row 0, capped at row 575. -/
def rowOf (v : BitVec 32) : Fin 576 := ⟨min v.toInt.toNat 575, by omega⟩

/-- The indicator of "index word `v` names row `n`", as an extended real. -/
def hot (n : Fin 576) (v : BitVec 32) : EReal := if v.toNat = n.val then 1 else 0

/-- Stage one: row `r` of the flattened input against column `j` of the weight table. -/
def proj (zf : (⟨2, ![36864, 384]⟩ : Shape).Idx → EReal) (wt : (⟨2, ![384, 4]⟩ : Shape).Idx → EReal) :
    (⟨2, ![36864, 4]⟩ : Shape).Idx → EReal :=
  fun i => ∑ d : Fin 384, zf (ix2 (i 0) d) * wt (ix2 d (i 1))

/-- Stage two, in the transposed layout [batch, target, pair]: the table's columns `t` and `2 + t` summed against
    the indicator columns of the pair's two index words, plus the bias. -/
def gath (y : (⟨3, ![64, 576, 4]⟩ : Shape).Idx → EReal) (ixT : (⟨3, ![64, 2, 4096]⟩ : Shape).Idx → BitVec 32)
    (bias : (⟨1, ![2]⟩ : Shape).Idx → EReal) : (⟨3, ![64, 2, 4096]⟩ : Shape).Idx → EReal :=
  fun i =>
    ((∑ n : Fin 576, y (ix3 (i 0) n ⟨(i 1).val, by have h : (i 1).val < 2 := (i 1).isLt; omega⟩) * hot n (ixT (ix3 (i 0) (0 : Fin 2) (i 2))))
      + (∑ n : Fin 576, y (ix3 (i 0) n ⟨2 + (i 1).val, by have h : (i 1).val < 2 := (i 1).isLt; omega⟩) * hot n (ixT (ix3 (i 0) (1 : Fin 2) (i 2)))))
    + bias (ix1 (i 1))

/-- The result, [batch, pair, target]. -/
def pairHead (z : (⟨3, ![64, 576, 384]⟩ : Shape).Idx → EReal) (idx : (⟨3, ![64, 4096, 2]⟩ : Shape).Idx → BitVec 32)
    (W : (⟨2, ![2, 768]⟩ : Shape).Idx → EReal) (bias : (⟨1, ![2]⟩ : Shape).Idx → EReal) :
    (⟨3, ![64, 4096, 2]⟩ : Shape).Idx → EReal :=
  fun i =>
    ((∑ d : Fin 384, z (ix3 (i 0) (rowOf (idx (ix3 (i 0) (i 1) (0 : Fin 2)))) d) * W (ix2 (i 2) ⟨d.val, by have := d.isLt; omega⟩))
      + (∑ d : Fin 384, z (ix3 (i 0) (rowOf (idx (ix3 (i 0) (i 1) (1 : Fin 2)))) d) * W (ix2 (i 2) ⟨384 + d.val, by have := d.isLt; omega⟩)))
    + bias (ix1 (i 2))

/-- A sum against the indicator of one row is that row's term: every other term is `x · 0 = 0`. -/
theorem sum_mul_hot (f : Fin 576 → EReal) (v : BitVec 32) (r : Fin 576) (hr : v.toNat = r.val) :
    (∑ n : Fin 576, f n * hot n v) = f r := by
  rw [Finset.sum_eq_single r]
  · simp [hot, hr]
  · intro n _ hn
    have : ¬ v.toNat = n.val := fun e => hn (Fin.ext (by omega))
    simp [hot, this]
  · intro h; exact absurd (Finset.mem_univ r) h

end Cert.PairHead

end
-- ==== Proof.Proj.lean ====
/-
  Stage one of the kernel read as an array: after the first region (every 2048-row tile of the flattened input
  multiplied against the whole 384 × 4 weight table), the result array holds, at row `r` and column `j`, the sum
  over `d` of `zf[r, d] · wt[d, j]` — on the extended reals, where narrowing to bfloat16 is the identity and a
  matrix product into a zero accumulator is the plain sum. Tile `t` reads rows `2048 t … 2048 t + 2047` of the input
  and writes the same rows of the result; the eighteen tiles cover all 36864 rows.
-/
import proofs.«407798_j70875550318749_3_alg».proof.Proof.Gen.KernelIdeal.Frame
import proofs.«407798_j70875550318749_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.ProjValue

open Cert.KernelIdeal Cert.KernelIdeal.Gen Cert.PairHead Idealize.ShloMosaic.ValueIdx

/-! ## The tile's product at an index -/

theorem lhs_tile_0 (i : S2048x4.Idx) (q : dot_S2048x384_S384x4_S2048x4_1_0_0_1_n_n.contr.Idx) :
    (dot_S2048x384_S384x4_S2048x4_1_0_0_1_n_n.lhsIdx i q 0).val = (i 0).val := by
  unfold DotDims.lhsIdx
  rw [dif_neg (show ¬(0 : Fin S2048x384.rank) ∈ dot_S2048x384_S384x4_S2048x4_1_0_0_1_n_n.lhsBatch by decide), dif_pos (show (0 : Fin S2048x384.rank) ∈ dot_S2048x384_S384x4_S2048x4_1_0_0_1_n_n.lhsNonContracting by decide)]
  rfl
theorem lhs_tile_1 (i : S2048x4.Idx) (q : dot_S2048x384_S384x4_S2048x4_1_0_0_1_n_n.contr.Idx) :
    (dot_S2048x384_S384x4_S2048x4_1_0_0_1_n_n.lhsIdx i q 1).val = (q ⟨0, by decide⟩).val :=
  dot_S2048x384_S384x4_S2048x4_1_0_0_1_n_n.lhsIdx_val_of_single rfl i q
theorem rhs_tile_0 (i : S2048x4.Idx) (q : dot_S2048x384_S384x4_S2048x4_1_0_0_1_n_n.contr.Idx) :
    (dot_S2048x384_S384x4_S2048x4_1_0_0_1_n_n.rhsIdx i q 0).val = (q ⟨0, by decide⟩).val :=
  dot_S2048x384_S384x4_S2048x4_1_0_0_1_n_n.rhsIdx_val_of_single rfl i q
theorem rhs_tile_1 (i : S2048x4.Idx) (q : dot_S2048x384_S384x4_S2048x4_1_0_0_1_n_n.contr.Idx) :
    (dot_S2048x384_S384x4_S2048x4_1_0_0_1_n_n.rhsIdx i q 1).val = (i 1).val := by
  unfold DotDims.rhsIdx
  rw [dif_neg (show ¬(1 : Fin S384x4.rank) ∈ dot_S2048x384_S384x4_S2048x4_1_0_0_1_n_n.rhsBatch by decide), dif_pos (show (1 : Fin S384x4.rank) ∈ dot_S2048x384_S384x4_S2048x4_1_0_0_1_n_n.rhsNonContracting by decide)]
  rfl

/-- One tile's stored value at (row, column): the row of the input tile against the column of the table. -/
theorem tile_apply (x0 : Vec Ideal S2048x384 .f32) (x1 : Vec Ideal S384x4 .f32) (j : S2048x4.Idx) :
    k0_pay1 (F := Ideal) x0 x1 j = ∑ d : Fin 384, x0 (ix2 (j 0) d) * x1 (ix2 d (j 1)) := by
  unfold k0_pay1
  simp only [shapeCast_self]
  refine (Ideal.matmul_constant_zero_apply dot_S2048x384_S384x4_S2048x4_1_0_0_1_n_n none _ _ j).trans ?_
  rw [← Equiv.sum_comp (ValueIdx.contrEquiv1 dot_S2048x384_S384x4_S2048x4_1_0_0_1_n_n 384 rfl rfl).symm]
  refine Finset.sum_congr rfl fun k _ => ?_
  have hk := ValueIdx.contrEquiv1_symm_val dot_S2048x384_S384x4_S2048x4_1_0_0_1_n_n 384 rfl rfl k
  have el : dot_S2048x384_S384x4_S2048x4_1_0_0_1_n_n.lhsIdx j ((ValueIdx.contrEquiv1 dot_S2048x384_S384x4_S2048x4_1_0_0_1_n_n 384 rfl rfl).symm k) = ix2 (j 0) k := funext fun a => Fin.ext (by
    match a with
    | ⟨0, _⟩ => exact lhs_tile_0 _ _
    | ⟨1, _⟩ => exact (lhs_tile_1 _ _).trans hk)
  have er : dot_S2048x384_S384x4_S2048x4_1_0_0_1_n_n.rhsIdx j ((ValueIdx.contrEquiv1 dot_S2048x384_S384x4_S2048x4_1_0_0_1_n_n 384 rfl rfl).symm k) = ix2 k (j 1) := funext fun a => Fin.ext (by
    match a with
    | ⟨0, _⟩ => exact (rhs_tile_0 _ _).trans hk
    | ⟨1, _⟩ => exact rhs_tile_1 _ _)
  rw [el, er]
  rfl

variable (V : (c : Dev nD) → (b : Ref sig .tc) → Buf (Elt Ideal) ((c : Thread nD τ).loc b))

/-! ## The tiles' places in the arrays -/

theorem hz : (![0, 0] : Fin 2 → Nat) = fun _ => 0 := funext fun a => by fin_cases a <;> rfl

/-- The three index maps over the grid: the input's and the result's tile `t` start at row block `t`, the table
    has the one block (0, 0). -/
theorem tile_origin : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input's tile `t` is rows `2048 t …` of the flattened input. -/
theorem ztile_apply (c : Dev nD) (t : Fin cfg0.N) (y : S2048x384.Idx) (k : S36864x384.Idx)
    (hk0 : (k 0).val = 2048 * t.val + (y 0).val) (hk1 : (k 1).val = (y 1).val) :
    (iblk0 V c 0 t : Vec Ideal S2048x384 .f32) y = (V c main_v7 : S36864x384.Idx → EReal) k := by
  obtain ⟨e0, e1, -⟩ := tile_origin t
  unfold iblk0
  rw [View.read_apply]
  show (V c main_v7 : S36864x384.Idx → EReal) _ = (V c main_v7 : S36864x384.Idx → EReal) k
  congr 1
  funext a
  apply Fin.ext
  match a with
  | ⟨0, _⟩ => show win0_0.index t 0 * 2048 + 1 * (y 0).val = (k 0).val; rw [e0, hk0]; omega
  | ⟨1, _⟩ => show win0_0.index t 1 * 384 + 1 * (y 1).val = (k 1).val; rw [e1, hk1]; omega

/-- The table's one block is the table. -/
theorem wtile_apply (c : Dev nD) (t : Fin cfg0.N) (y : S384x4.Idx) :
    (iblk0 V c 1 t : Vec Ideal S384x4 .f32) y = (V c main_v6 : S384x4.Idx → EReal) y := by
  obtain ⟨-, -, e2, e3, -⟩ := tile_origin t
  unfold iblk0
  rw [View.read_apply]
  show (V c main_v6 : S384x4.Idx → EReal) _ = (V c main_v6 : S384x4.Idx → EReal) y
  congr 1
  funext a
  apply Fin.ext
  match a with
  | ⟨0, _⟩ => show win0_1.index t 0 * 384 + 1 * (y 0).val = (y 0).val; rw [e2]; omega
  | ⟨1, _⟩ => show win0_1.index t 1 * 4 + 1 * (y 1).val = (y 1).val; rw [e3]; omega

/-- What tile `t` writes back is its block of `proj` of the two arrays as the region finds them. -/
theorem flushed_eq (c : Dev nD) (t : Fin cfg0.N) :
    (dat0 (F := Ideal) V c).flushed 2 t
      = ((cfg0.win 2).blk t).view.read (Elt Ideal) (proj (V c main_v7) (V c main_v6)) := by
  show (cfg0.win 2).cut (grid0.coords t) ((dat0 V c).after 2 t) = _
  rw [after0_2]
  unfold out0_2
  rw [View.canon_unit_zero hz]
  simp only [View.ld_unit_zero (S := S2048x384) hz, View.ld_unit_zero (S := S384x4) hz]
  obtain ⟨-, -, -, -, e4, e5⟩ := tile_origin t
  funext j
  show k0_pay1 (F := Ideal) (iblk0 V c 0 t) (iblk0 V c 1 t) j = proj (V c main_v7) (V c main_v6) (((cfg0.win 2).blk t).view.emb j)
  refine (tile_apply (iblk0 V c 0 t) (iblk0 V c 1 t) j).trans ?_
  unfold proj
  refine Finset.sum_congr rfl fun d _ => ?_
  have r0 : ((((cfg0.win 2).blk t).view.emb j) 0).val = 2048 * t.val + (j 0).val := by
    show win0_2.index t 0 * 2048 + 1 * (j 0).val = _; rw [e4]; omega
  have r1 : ((((cfg0.win 2).blk t).view.emb j) 1).val = (j 1).val := by
    show win0_2.index t 1 * 4 + 1 * (j 1).val = _; rw [e5]; omega
  rw [ztile_apply V c t (ix2 (j 0) d) (ix2 ((((cfg0.win 2).blk t).view.emb j) 0) d) r0 rfl, wtile_apply V c t (ix2 d (j 1))]
  congr 2
  funext a
  apply Fin.ext
  match a with
  | ⟨0, _⟩ => rfl
  | ⟨1, _⟩ => exact r1.symm

/-- Every row of the result lies in some tile's block. -/
theorem cover (i : S36864x4.Idx) :
    ∃ t : Fin cfg0.N, (cfg0.win 2).flush t = true ∧ i ∈ ((cfg0.win 2).blk t).view.set := by
  have h0 : (i 0).val < 36864 := (i 0).isLt
  have h1 : (i 1).val < 4 := (i 1).isLt
  have hN : cfg0.N = 18 := N_0
  let t : Fin cfg0.N := ⟨(i 0).val / 2048, by rw [hN]; omega⟩
  obtain ⟨-, -, -, -, e4, e5⟩ := tile_origin t
  refine ⟨t, flush0_2 t, ?_⟩
  show i ∈ ((View.whole main_v8).slice (win0_2.rect t)).set
  rw [View.set_slice_whole, Rect.mem_set_unit]
  intro a
  match a with
  | ⟨0, _⟩ =>
    show win0_2.index t 0 * 2048 ≤ (i 0).val ∧ (i 0).val < win0_2.index t 0 * 2048 + 2048
    rw [e4]; show (i 0).val / 2048 * 2048 ≤ (i 0).val ∧ (i 0).val < (i 0).val / 2048 * 2048 + 2048; omega
  | ⟨1, _⟩ =>
    show win0_2.index t 1 * 4 ≤ (i 1).val ∧ (i 1).val < win0_2.index t 1 * 4 + 4
    rw [e5]; omega

/-- After the first region the result array is `proj` of the flattened input and the weight table. -/
theorem arr_proj (c : Dev nD) :
    (dat0 (F := Ideal) V c).arrAt 2 cfg0.N = proj (V c main_v7) (V c main_v6) :=
  (dat0 (F := Ideal) V c).arrAt_eq_of_cover 2 (proj (V c main_v7) (V c main_v6)) (fun t _ => flushed_eq V c t) cover

end Cert.KernelIdeal.ProjValue

end
-- ==== Proof.Gather.lean ====
/-
  The output of the selection stage. The second call runs over 64 × 2 grid points; point `t` is batch `t / 2` and half
  `t % 2` of the 4096 pairs. Its body forms, for each of the pair's two index words, the indicator column of the row the
  word names (row `n` of 576 is hit when the word, read unsigned, is `n`), contracts the table's column pairs
  `(0, 1)` and `(2, 3)` against the two indicator matrices over the rows, adds the two products and the bias of the
  target. Read at an index of the block this is `gath` of the blocks; each block sits in its array at
  index × block size + the coordinate inside the block; the 128 blocks tile the [64, 2, 4096] output, so the output array
  ends holding `gath` of the three input arrays.
-/
import proofs.«407798_j70875550318749_3_alg».proof.Proof.Gen.KernelIdeal.Frame
import proofs.«407798_j70875550318749_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.GatherValue

open Cert.KernelIdeal Cert.KernelIdeal.Gen Cert.PairHead

variable (V : (c : Dev nD) → (b : Ref sig .tc) → Buf (Elt Ideal) ((c : Thread nD τ).loc b))

section Reading

open Idealize.ShloMosaic.ValueIdx

/-! ## The contraction: both operands contract their row axis -/

theorem lhs_dot_0 (j : S2x2048.Idx) (q : dot_S576x2_S576x2048_S2x2048_0_0_1_1_n_n.contr.Idx) :
    (dot_S576x2_S576x2048_S2x2048_0_0_1_1_n_n.lhsIdx j q 0).val = (q ⟨0, by decide⟩).val :=
  dot_S576x2_S576x2048_S2x2048_0_0_1_1_n_n.lhsIdx_val_of_single rfl j q
theorem lhs_dot_1 (j : S2x2048.Idx) (q : dot_S576x2_S576x2048_S2x2048_0_0_1_1_n_n.contr.Idx) :
    (dot_S576x2_S576x2048_S2x2048_0_0_1_1_n_n.lhsIdx j q 1).val = (j 0).val := by
  unfold DotDims.lhsIdx
  rw [dif_neg (show ¬(1 : Fin S576x2.rank) ∈ dot_S576x2_S576x2048_S2x2048_0_0_1_1_n_n.lhsBatch by decide), dif_pos (show (1 : Fin S576x2.rank) ∈ dot_S576x2_S576x2048_S2x2048_0_0_1_1_n_n.lhsNonContracting by decide)]
  rfl
theorem rhs_dot_0 (j : S2x2048.Idx) (q : dot_S576x2_S576x2048_S2x2048_0_0_1_1_n_n.contr.Idx) :
    (dot_S576x2_S576x2048_S2x2048_0_0_1_1_n_n.rhsIdx j q 0).val = (q ⟨0, by decide⟩).val :=
  dot_S576x2_S576x2048_S2x2048_0_0_1_1_n_n.rhsIdx_val_of_single rfl j q
theorem rhs_dot_1 (j : S2x2048.Idx) (q : dot_S576x2_S576x2048_S2x2048_0_0_1_1_n_n.contr.Idx) :
    (dot_S576x2_S576x2048_S2x2048_0_0_1_1_n_n.rhsIdx j q 1).val = (j 1).val := by
  unfold DotDims.rhsIdx
  rw [dif_neg (show ¬(1 : Fin S576x2048.rank) ∈ dot_S576x2_S576x2048_S2x2048_0_0_1_1_n_n.rhsBatch by decide), dif_pos (show (1 : Fin S576x2048.rank) ∈ dot_S576x2_S576x2048_S2x2048_0_0_1_1_n_n.rhsNonContracting by decide)]
  rfl

/-- The product into a zero accumulator, read at `(t, k)`: the sum over the rows `n` of `a (n, t) · b (n, k)`. -/
theorem dot_apply (a : FVec Ideal S576x2 .f32) (b : FVec Ideal S576x2048 .f32) (t : Fin 2) (k : Fin 2048) :
    matmul (F := Ideal) dot_S576x2_S576x2048_S2x2048_0_0_1_1_n_n none a b (constant (F := Ideal) S2x2048 .f32 0x00000000#32) (ix2 t k)
      = ∑ n : Fin 576, a (ix2 n t) * b (ix2 n k) := by
  show FloatOps.matmul dot_S576x2_S576x2048_S2x2048_0_0_1_1_n_n none a b (constant (F := Ideal) S2x2048 .f32 0x00000000#32) (ix2 t k) = _
  rw [Ideal.matmul_constant_zero_apply, ← Equiv.sum_comp (ValueIdx.contrEquiv1 dot_S576x2_S576x2048_S2x2048_0_0_1_1_n_n 576 rfl rfl).symm]
  refine Finset.sum_congr rfl fun n _ => ?_
  have hk := ValueIdx.contrEquiv1_symm_val dot_S576x2_S576x2048_S2x2048_0_0_1_1_n_n 576 rfl rfl n
  have el : dot_S576x2_S576x2048_S2x2048_0_0_1_1_n_n.lhsIdx (ix2 t k) ((ValueIdx.contrEquiv1 dot_S576x2_S576x2048_S2x2048_0_0_1_1_n_n 576 rfl rfl).symm n) = ix2 n t := funext fun ax => Fin.ext (by
    match ax with
    | ⟨0, _⟩ => exact (lhs_dot_0 _ _).trans hk
    | ⟨1, _⟩ => exact lhs_dot_1 _ _)
  have er : dot_S576x2_S576x2048_S2x2048_0_0_1_1_n_n.rhsIdx (ix2 t k) ((ValueIdx.contrEquiv1 dot_S576x2_S576x2048_S2x2048_0_0_1_1_n_n 576 rfl rfl).symm n) = ix2 n k := funext fun ax => Fin.ext (by
    match ax with
    | ⟨0, _⟩ => exact (rhs_dot_0 _ _).trans hk
    | ⟨1, _⟩ => exact rhs_dot_1 _ _)
  rw [el, er]

/-! ## The indicator column -/

/-- For a row below 576, the row's number as a word is the index word exactly when the word, read unsigned, is the row. -/
theorem ofNat_eq_iff (n : Fin 576) (v : BitVec 32) : BitVec.ofNat 32 n.val = v ↔ v.toNat = n.val := by
  have hn : n.val < 576 := n.isLt
  constructor
  · intro h; rw [← h, BitVec.toNat_ofNat]; omega
  · intro h; apply BitVec.eq_of_toNat_eq; rw [BitVec.toNat_ofNat, h]; omega

/-- The comparison's bit, widened and read signed as a float, is the indicator. -/
theorem hot_word (n : Fin 576) (v : BitVec 32) :
    (FloatOps.sitofp (F := Ideal) .f32 ((IntOp.cmpi .eq (BitVec.ofNat 32 n.val) v).setWidth 32) : Ideal .f32) = hot n v := by
  show ((((IntOp.cmpi .eq (BitVec.ofNat 32 n.val) v).setWidth 32).toInt : ℝ) : EReal) = hot n v
  unfold hot
  by_cases h : v.toNat = n.val
  · have e : IntOp.cmpi .eq (BitVec.ofNat 32 n.val) v = 1#1 := by
      have hb : (BitVec.ofNat 32 n.val == v) = true := beq_iff_eq.mpr ((ofNat_eq_iff n v).mpr h)
      show BitVec.ofBool (BitVec.ofNat 32 n.val == v) = 1#1
      rw [hb]; rfl
    rw [if_pos h, e]
    simp
  · have e : IntOp.cmpi .eq (BitVec.ofNat 32 n.val) v = 0#1 := by
      have hne : ¬ BitVec.ofNat 32 n.val = v := fun e => h ((ofNat_eq_iff n v).mp e)
      have hb : (BitVec.ofNat 32 n.val == v) = false := beq_eq_false_iff_ne.mpr hne
      show BitVec.ofBool (BitVec.ofNat 32 n.val == v) = 0#1
      rw [hb]; rfl
    rw [if_neg h, e]
    simp

/-! ## The layout operations of the body, read at coordinates -/

/-- Column `c = o + t` of the table block, through the cast that drops the unit batch axis and the column slice from `o`. -/
theorem tbl_apply (x0 : Vec Ideal S1x576x4 .f32) (o : Nat) (hc : S1x576x4.ShapeCasts S576x4) (hs : S576x4.Slices ![0, o] S576x2)
    (n : Fin 576) (t : Fin 2) (c : Fin 4) (hk : c.val = o + t.val) :
    extractStridedSlice S576x2 ![0, o] (shapeCast S576x4 x0 hc) hs (ix2 n t) = x0 (ix3 (0 : Fin 1) n c) :=
  (slice2_axis1_apply o _ hs n t c hk).trans (shapeCast_1ab_ab_apply x0 hc n c)

/-- The indicator operand at `(n, k)`: row `n` against the index word at `(r, k)` of the index block, `r` the row the slice takes. -/
theorem ind_apply (x1 : Vec Ideal S1x2x2048 .i32) (o : Nat) (hc : S1x2x2048.ShapeCasts S2x2048) (hs : S2x2048.Slices ![o, 0] S1x2048)
    (hb : S1x2048.Broadcasts S576x2048) (hi : S576x2048.Iotas .tc 32 [0]) (hw : 1 < 32)
    (r : Fin 2) (hr : r.val = o + (0 : Fin 1).val) (n : Fin 576) (k : Fin 2048) :
    (sitofp (F := Ideal) .f32 (extui 32 (cmpi .eq (iota .tc S576x2048 32 [0] hi)
        (broadcastTo S576x2048 (extractStridedSlice S1x2048 ![o, 0] (shapeCast S2x2048 x1 hc) hs) hb)) hw) : FVec Ideal S576x2048 .f32) (ix2 n k)
      = hot n (x1 (ix3 (0 : Fin 1) r k)) := by
  have e1 : iota .tc S576x2048 32 [0] hi (ix2 n k) = BitVec.ofNat 32 n.val := iota_single_apply .tc S576x2048 32 0 hi (ix2 n k)
  have e2 : broadcastTo S576x2048 (extractStridedSlice S1x2048 ![o, 0] (shapeCast S2x2048 x1 hc) hs) hb (ix2 n k) = x1 (ix3 (0 : Fin 1) r k) :=
    (broadcastTo_1b_ab_apply _ hb n k).trans ((slice2_axis0_apply o _ hs (0 : Fin 1) k r hr).trans (shapeCast_1ab_ab_apply x1 hc r k))
  exact (congrArg₂ (fun a b => (FloatOps.sitofp (F := Ideal) .f32 ((IntOp.cmpi .eq a b).setWidth 32) : Ideal .f32)) e1 e2).trans (hot_word n _)

/-- The bias column broadcast along the pairs reads the bias of the target. -/
theorem bias_apply (x2 : Vec Ideal S2 .f32) (hc : S2.ShapeCasts S2x1) (hb : S2x1.Broadcasts S2x2048) (t : Fin 2) (k : Fin 2048) :
    broadcastTo S2x2048 (shapeCast S2x1 x2 hc) hb (ix2 t k) = x2 (ix1 t) := by
  refine (broadcastTo_apply _ hb (ix2 t k) (ix2 t (0 : Fin 1)) fun ax => ?_).trans ?_
  · match ax with
    | ⟨0, _⟩ => show t.val = if (2 : Nat) = 1 then 0 else t.val; rw [if_neg (by decide)]
    | ⟨1, _⟩ => show 0 = if (1 : Nat) = 1 then 0 else k.val; rw [if_pos rfl]
  · exact shapeCast_apply x2 hc _ _ (by rw [Shape.rowMajor_val_one, Shape.rowMajor_val_two]; show t.val = t.val * 1 + 0; omega)

/-! ## The body's arithmetic at an index of its block -/

/-- What the body stores at `(0, t, k)`: the table's columns `t` and `2 + t` against the indicator columns of the pair's two index
    words, plus the bias of target `t`. -/
theorem pay_apply (x0 : Vec Ideal S1x576x4 .f32) (x1 : Vec Ideal S1x2x2048 .i32) (x2 : Vec Ideal S2 .f32) (t : Fin 2) (k : Fin 2048) :
    k1_pay1 (F := Ideal) x0 x1 x2 (ix3 (0 : Fin 1) t k)
      = ((∑ n : Fin 576, x0 (ix3 (0 : Fin 1) n ⟨t.val, by have := t.isLt; omega⟩) * hot n (x1 (ix3 (0 : Fin 1) (0 : Fin 2) k)))
          + (∑ n : Fin 576, x0 (ix3 (0 : Fin 1) n ⟨2 + t.val, by have := t.isLt; omega⟩) * hot n (x1 (ix3 (0 : Fin 1) (1 : Fin 2) k))))
        + x2 (ix1 t) := by
  unfold k1_pay1
  refine (shapeCast_ab_1ab_apply _ _ (0 : Fin 1) t k).trans ?_
  refine (addf_apply _ _ _).trans (congrArg₂ (· + ·) ((addf_apply _ _ _).trans (congrArg₂ (· + ·) ?_ ?_)) (bias_apply x2 _ _ t k))
  · exact (dot_apply _ _ t k).trans (Finset.sum_congr rfl fun n _ => congrArg₂ (· * ·)
      (tbl_apply x0 0 _ _ n t ⟨t.val, by have := t.isLt; omega⟩ (Nat.zero_add _).symm) (ind_apply x1 0 _ _ _ _ _ (0 : Fin 2) rfl n k))
  · exact (dot_apply _ _ t k).trans (Finset.sum_congr rfl fun n _ => congrArg₂ (· * ·)
      (tbl_apply x0 2 _ _ n t ⟨2 + t.val, by have := t.isLt; omega⟩ rfl) (ind_apply x1 1 _ _ _ _ _ (1 : Fin 2) rfl n k))

/-! ## The blocks: where a point's windows sit in their arrays -/

theorem hz3 : (![0, 0, 0] : Fin 3 → Nat) = fun _ => 0 := funext fun a => by fin_cases a <;> rfl
theorem hz1 : (![0] : Fin 1 → Nat) = fun _ => 0 := funext fun a => by fin_cases a <;> rfl

/-- The printed index maps, decided over the grid: point `t` is batch `t / 2`, half `t % 2` of the pairs. -/
theorem idx_facts : ∀ t : Fin cfg1.N,
    win1_3.index t (0 : Fin 3) = t.val / 2 ∧ win1_3.index t (1 : Fin 3) = 0 ∧ win1_3.index t (2 : Fin 3) = t.val % 2
    ∧ win1_0.index t (0 : Fin 3) = t.val / 2 ∧ win1_0.index t (1 : Fin 3) = 0 ∧ win1_0.index t (2 : Fin 3) = 0
    ∧ win1_1.index t (0 : Fin 3) = t.val / 2 ∧ win1_1.index t (1 : Fin 3) = 0 ∧ win1_1.index t (2 : Fin 3) = t.val % 2
    ∧ win1_2.index t (0 : Fin 1) = 0 :=
  (by decide +kernel : ∀ t : Fin grid1.N, _)

/-- The table window's block at point `t` is batch `t / 2` of the table. -/
theorem tbl_blk (c : Dev nD) (t : Fin cfg1.N) (y : S1x576x4.Idx) (k : S64x576x4.Idx)
    (h0 : (k 0).val = t.val / 2) (h1 : (k 1).val = (y 1).val) (h2 : (k 2).val = (y 2).val) :
    (iblk1 (F := Ideal) V c 0 t : Vec Ideal S1x576x4 .f32) y = (V c main_v9 : S64x576x4.Idx → Elt Ideal .f32) k := by
  obtain ⟨-, -, -, e0, e1, e2, -⟩ := idx_facts t
  have hy : (y 0).val < 1 := (y 0).isLt
  unfold iblk1
  rw [View.read_apply]
  show V c main_v9 _ = V c main_v9 _
  congr 1
  funext a
  apply Fin.ext
  match a with
  | ⟨0, _⟩ => show win1_0.index t (0 : Fin 3) * 1 + 1 * (y 0).val = (k 0).val; rw [e0, h0]; omega
  | ⟨1, _⟩ => show win1_0.index t (1 : Fin 3) * 576 + 1 * (y 1).val = (k 1).val; rw [e1, h1]; omega
  | ⟨2, _⟩ => show win1_0.index t (2 : Fin 3) * 4 + 1 * (y 2).val = (k 2).val; rw [e2, h2]; omega

/-- The index window's block at point `t` is batch `t / 2`, pairs `2048 · (t % 2) …` of the index words. -/
theorem idx_blk (c : Dev nD) (t : Fin cfg1.N) (y : S1x2x2048.Idx) (k : S64x2x4096.Idx)
    (h0 : (k 0).val = t.val / 2) (h1 : (k 1).val = (y 1).val) (h2 : (k 2).val = (t.val % 2) * 2048 + (y 2).val) :
    (iblk1 (F := Ideal) V c 1 t : Vec Ideal S1x2x2048 .i32) y = (V c main_v1 : S64x2x4096.Idx → Elt Ideal .i32) k := by
  obtain ⟨-, -, -, -, -, -, e0, e1, e2, -⟩ := idx_facts t
  have hy : (y 0).val < 1 := (y 0).isLt
  unfold iblk1
  rw [View.read_apply]
  show V c main_v1 _ = V c main_v1 _
  congr 1
  funext a
  apply Fin.ext
  match a with
  | ⟨0, _⟩ => show win1_1.index t (0 : Fin 3) * 1 + 1 * (y 0).val = (k 0).val; rw [e0, h0]; omega
  | ⟨1, _⟩ => show win1_1.index t (1 : Fin 3) * 2 + 1 * (y 1).val = (k 1).val; rw [e1, h1]; omega
  | ⟨2, _⟩ => show win1_1.index t (2 : Fin 3) * 2048 + 1 * (y 2).val = (k 2).val; rw [e2, h2]; omega

/-- The bias window's block is the whole bias at every point. -/
theorem bias_blk (c : Dev nD) (t : Fin cfg1.N) (y : S2.Idx) (k : S2.Idx) (h0 : (k 0).val = (y 0).val) :
    (iblk1 (F := Ideal) V c 2 t : Vec Ideal S2 .f32) y = (V c main_arg3 : S2.Idx → Elt Ideal .f32) k := by
  obtain ⟨-, -, -, -, -, -, -, -, -, e0⟩ := idx_facts t
  unfold iblk1
  rw [View.read_apply]
  show V c main_arg3 _ = V c main_arg3 _
  congr 1
  funext a
  apply Fin.ext
  match a with
  | ⟨0, _⟩ => show win1_2.index t (0 : Fin 1) * 2 + 1 * (y 0).val = (k 0).val; rw [e0, h0]; omega

/-- Where an index of the output block at point `t` sits in the output array. -/
theorem out_emb (t : Fin cfg1.N) (y : S1x2x2048.Idx) :
    ((((cfg1.win 3).blk t).view.emb y : S64x2x4096.Idx) 0).val = t.val / 2
    ∧ ((((cfg1.win 3).blk t).view.emb y : S64x2x4096.Idx) 1).val = (y 1).val
    ∧ ((((cfg1.win 3).blk t).view.emb y : S64x2x4096.Idx) 2).val = (t.val % 2) * 2048 + (y 2).val := by
  obtain ⟨e0, e1, e2, -⟩ := idx_facts t
  have hy : (y 0).val < 1 := (y 0).isLt
  refine ⟨?_, ?_, ?_⟩
  · show win1_3.index t (0 : Fin 3) * 1 + 1 * (y 0).val = _; rw [e0]; omega
  · show win1_3.index t (1 : Fin 3) * 2 + 1 * (y 1).val = _; rw [e1]; omega
  · show win1_3.index t (2 : Fin 3) * 2048 + 1 * (y 2).val = _; rw [e2]; omega

/-! ## What a point writes back -/

/-- Point `t` writes back block `t` of `gath` of the three input arrays as the region found them. -/
theorem flushed_eq (c : Dev nD) (t : Fin cfg1.N) :
    (dat1 (F := Ideal) V c).flushed 3 t
      = ((cfg1.win 3).blk t).view.read (Elt Ideal) (gath (V c main_v9) (V c main_v1) (V c main_arg3)) := by
  show (cfg1.win 3).cut (grid1.coords t) ((dat1 (F := Ideal) V c).after 3 t) = _
  rw [after1_3]
  unfold out1_3
  rw [View.canon_unit_zero hz3]
  simp only [View.ld_unit_zero (S := S1x576x4) hz3, View.ld_unit_zero (S := S1x2x2048) hz3, View.ld_unit_zero (S := S2) hz1]
  refine funext fun (j : S1x2x2048.Idx) => ?_
  rw [View.read_apply]
  show k1_pay1 (F := Ideal) (iblk1 V c 0 t) (iblk1 V c 1 t) (iblk1 V c 2 t) j = _
  obtain ⟨tt, kk, rfl⟩ : ∃ (tt : Fin 2) (kk : Fin 2048), j = ix3 (0 : Fin 1) tt kk :=
    ⟨j 1, j 2, (eq_ix3 j).trans (congrArg (fun u => ix3 u (j 1) (j 2))
      (Fin.ext (by have h : (j 0).val < 1 := (j 0).isLt; show (j 0).val = 0; omega) : j 0 = (0 : Fin 1)))⟩
  obtain ⟨i0, i1, i2⟩ := out_emb t (ix3 (0 : Fin 1) tt kk)
  rw [pay_apply]
  unfold gath
  refine congrArg₂ (· + ·) (congrArg₂ (· + ·) ?_ ?_) (bias_blk V c t _ _ i1)
  · exact Finset.sum_congr rfl fun n _ => congrArg₂ (· * ·) (tbl_blk V c t _ _ i0 rfl i1)
      (congrArg (hot n) (idx_blk V c t _ _ i0 rfl i2))
  · exact Finset.sum_congr rfl fun n _ => congrArg₂ (· * ·) (tbl_blk V c t _ _ i0 rfl (congrArg (2 + ·) i1))
      (congrArg (hot n) (idx_blk V c t _ _ i0 rfl i2))

/-! ## The blocks tile the output array -/

/-- An index of the array is in point `t`'s block iff each coordinate is in the block's range on its axis. -/
theorem mem_blk (t : Fin cfg1.N) (i : S64x2x4096.Idx) :
    i ∈ ((cfg1.win 3).blk t).view.set ↔ ∀ a : Fin 3, win1_3.index t a * S1x2x2048.size a ≤ (i a).val ∧ (i a).val < win1_3.index t a * S1x2x2048.size a + S1x2x2048.size a := by
  show i ∈ ((View.whole main_v10).slice (win1_3.rect t)).set ↔ _
  rw [View.set_slice_whole, Rect.mem_set_unit]
  exact Iff.rfl

/-- Every index `(b, t, k)` of the output lies in the block of the point `2 · b + k / 2048`, which writes it back. -/
theorem cover (i : S64x2x4096.Idx) :
    ∃ t : Fin cfg1.N, (cfg1.win 3).flush t = true ∧ i ∈ ((cfg1.win 3).blk t).view.set := by
  have hN : grid1.N = 128 := by decide
  have h0 : (i 0).val < 64 := (i 0).isLt
  have h1 : (i 1).val < 2 := (i 1).isLt
  have h2 : (i 2).val < 4096 := (i 2).isLt
  have ht : 2 * (i 0).val + (i 2).val / 2048 < cfg1.N := by show _ < grid1.N; rw [hN]; omega
  refine ⟨⟨2 * (i 0).val + (i 2).val / 2048, ht⟩, flush1_3 _, ?_⟩
  rw [mem_blk]
  obtain ⟨e0, e1, e2, -⟩ := idx_facts ⟨2 * (i 0).val + (i 2).val / 2048, ht⟩
  intro a
  match a with
  | ⟨0, _⟩ =>
    show win1_3.index ⟨2 * (i 0).val + (i 2).val / 2048, ht⟩ (0 : Fin 3) * 1 ≤ (i 0).val ∧ (i 0).val < win1_3.index ⟨2 * (i 0).val + (i 2).val / 2048, ht⟩ (0 : Fin 3) * 1 + 1
    rw [e0]; show (2 * (i 0).val + (i 2).val / 2048) / 2 * 1 ≤ (i 0).val ∧ (i 0).val < (2 * (i 0).val + (i 2).val / 2048) / 2 * 1 + 1; omega
  | ⟨1, _⟩ =>
    show win1_3.index ⟨2 * (i 0).val + (i 2).val / 2048, ht⟩ (1 : Fin 3) * 2 ≤ (i 1).val ∧ (i 1).val < win1_3.index ⟨2 * (i 0).val + (i 2).val / 2048, ht⟩ (1 : Fin 3) * 2 + 2
    rw [e1]; omega
  | ⟨2, _⟩ =>
    show win1_3.index ⟨2 * (i 0).val + (i 2).val / 2048, ht⟩ (2 : Fin 3) * 2048 ≤ (i 2).val ∧ (i 2).val < win1_3.index ⟨2 * (i 0).val + (i 2).val / 2048, ht⟩ (2 : Fin 3) * 2048 + 2048
    rw [e2]; show (2 * (i 0).val + (i 2).val / 2048) % 2 * 2048 ≤ (i 2).val ∧ (i 2).val < (2 * (i 0).val + (i 2).val / 2048) % 2 * 2048 + 2048; omega

end Reading

/-! ## The output array after the call -/

theorem arr_gath (c : Dev nD) :
    (dat1 (F := Ideal) V c).arrAt 3 cfg1.N = gath (V c main_v9) (V c main_v1) (V c main_arg3) :=
  (dat1 (F := Ideal) V c).arrAt_eq_of_cover 3 (gath (V c main_v9) (V c main_v1) (V c main_arg3))
    (fun t _ => flushed_eq V c t) cover

end Cert.KernelIdeal.GatherValue

end
-- ==== Proof.Host.lean ====
/-
  The host operations around the two regions, read at an index, and the kernel program's result as one function of
  the argument arrays.

  Before the first region the wrapper clamps every index word into [0, 575] and swaps the last two axes of the
  index array, cuts the 2 × 768 weight matrix into its two 2 × 384 halves, transposes each and lays them side by
  side as a 384 × 4 table (column `t` is row `t` of the first half, column `2 + t` row `t` of the second), and
  flattens the input to 36864 × 384. Between the regions the 36864 × 4 product is viewed as 64 × 576 × 4; after the
  second region the last two axes of its result are swapped back. Composed with the two regions' arrays
  (`proj`, `gath`) this is `pairHead`: the indicator sums pick the rows the clamped index words name, and a
  clamped word names the row `rowOf` of the original word.
-/
import proofs.«407798_j70875550318749_3_alg».proof.Proof.Gen.KernelIdeal.Frame
import proofs.«407798_j70875550318749_3_alg».proof.Proof.Spec
import proofs.«407798_j70875550318749_3_alg».proof.Proof.Proj
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.HostValue

open Cert.KernelIdeal Cert.KernelIdeal.Gen Cert.PairHead Idealize.ShloMosaic.ValueIdx

/-! ## An index word clamped into the table's rows -/

/-- The wrapper's clamp of one index word: at least 0, at most 575, both read signed. -/
def clipW (v : BitVec 32) : BitVec 32 := IntOp.minsi 575#32 (IntOp.maxsi 0#32 v)

/-- The clamped word, read unsigned, is the row the word names. -/
theorem clipW_toNat (v : BitVec 32) : (clipW v).toNat = (rowOf v).val := by
  unfold clipW rowOf IntOp.minsi IntOp.maxsi
  simp only [BitVec.slt, decide_eq_true_eq]
  have h0 : (0#32 : BitVec 32).toInt = 0 := by decide
  have h575 : (575#32 : BitVec 32).toInt = 575 := by decide
  have t0 : (0#32 : BitVec 32).toNat = 0 := rfl
  have t575 : (575#32 : BitVec 32).toNat = 575 := rfl
  have hv := BitVec.toInt_eq_toNat_cond v
  have hb := v.isLt
  split_ifs with h1 h2 h3 <;> simp only [h0, h575] at * <;> (try rw [t0]) <;> (try rw [t575]) <;> (show _ = min _ 575) <;> omega

variable (m : (ℓ : Loc nD τ sig) → Buf (Elt Ideal) ℓ) (ρ : Dev nD → PrngReg)

/-! ## The arrays at the regions' boundaries, whole -/

/-- The first region finds the input flattened. -/
theorem v7_entry (c : Dev nD) :
    (V3 m ρ c main_v7 : S36864x384.Idx → EReal)
      = shapeCast S36864x384 (m ((c : Thread nD τ).loc main_arg0) : S64x576x384.Idx → EReal) shapeCasts_S64x576x384_S36864x384 := by
  show StableHlo.after hostOps0_2 (StableHlo.after hostOps0_1 (StableHlo.after hostOps0 (W0 m ρ c))) (Proc.devRef .tc main_v7) = _
  simp only [hostOps0_2, hostOps0_1, hostOps0]
  after_results <;> rfl

/-- The first region finds the weight table: the two transposed halves of the weight matrix side by side. -/
theorem v6_entry (c : Dev nD) :
    (V3 m ρ c main_v6 : S384x4.Idx → EReal)
      = concatenate S384x4 1
          [⟨S384x2, transpose S384x2 [1, 0] (extractStridedSlice S2x384 ![0, 0] (m ((c : Thread nD τ).loc main_arg2) : S2x768.Idx → EReal) slices_S2x768_S2x384_0_0) transposes_S2x384_S384x2_1_0⟩,
           ⟨S384x2, transpose S384x2 [1, 0] (extractStridedSlice S2x384 ![0, 384] (m ((c : Thread nD τ).loc main_arg2) : S2x768.Idx → EReal) slices_S2x768_S2x384_0_384) transposes_S2x384_S384x2_1_0⟩]
          concatenates_S384x2_S384x2_S384x4_d1 := by
  show StableHlo.after hostOps0_2 (StableHlo.after hostOps0_1 (StableHlo.after hostOps0 (W0 m ρ c))) (Proc.devRef .tc main_v6) = _
  simp only [hostOps0_2, hostOps0_1, hostOps0]
  after_results <;> rfl

/-- The clamped index array with its last two axes swapped, as the wrapper leaves it before the first region. -/
theorem v1_entry (c : Dev nD) :
    (V3 m ρ c main_v1 : S64x2x4096.Idx → BitVec 32)
      = transpose S64x2x4096 [0, 2, 1]
          (minsi (broadcastInDim S64x4096x2 ![] bcast_S_S64x4096x2 (constantI S_ 32 575#32))
            (maxsi (broadcastInDim S64x4096x2 ![] bcast_S_S64x4096x2 (constantI S_ 32 0#32))
              (m ((c : Thread nD τ).loc main_arg1) : S64x4096x2.Idx → BitVec 32)))
          transposes_S64x4096x2_S64x2x4096_0_2_1 := by
  show StableHlo.after hostOps0_2 (StableHlo.after hostOps0_1 (StableHlo.after hostOps0 (W0 m ρ c))) (Proc.devRef .tc main_v1) = _
  simp only [hostOps0_2, hostOps0_1, hostOps0]
  after_results <;> (try simp only [TRef.ofBuf, TRef.toBuf, cast_eq]) <;> rfl

/-- Nothing between the first region's entry and the second's writes the index array. -/
theorem v1_carried (c : Dev nD) : V5 m ρ c main_v1 = V3 m ρ c main_v1 := by
  show StableHlo.after hostOps1 (W4 m ρ c) (Proc.devRef .tc main_v1) = _
  simp only [hostOps1]
  after_results
  exact W4_of_ne m ρ c main_v1 (by decide)

/-- The second region finds the bias as launched. -/
theorem arg3_carried (c : Dev nD) : V5 m ρ c main_arg3 = m ((c : Thread nD τ).loc main_arg3) := by
  show StableHlo.after hostOps1 (W4 m ρ c) (Proc.devRef .tc main_arg3) = _
  simp only [hostOps1]
  after_results
  refine (W4_of_ne m ρ c main_arg3 (by decide)).trans ?_
  show StableHlo.after hostOps0_2 (StableHlo.after hostOps0_1 (StableHlo.after hostOps0 (W0 m ρ c))) (Proc.devRef .tc main_arg3) = _
  simp only [hostOps0_2, hostOps0_1, hostOps0]
  after_results <;> rfl

/-- The second region finds the first region's product, viewed 64 × 576 × 4. -/
theorem v9_entry (c : Dev nD) :
    (V5 m ρ c main_v9 : S64x576x4.Idx → EReal)
      = shapeCast S64x576x4 (proj (V3 m ρ c main_v7) (V3 m ρ c main_v6)) shapeCasts_S36864x4_S64x576x4 := by
  have e : (W4 m ρ c (Proc.devRef .tc main_v8) : S36864x4.Idx → EReal) = proj (V3 m ρ c main_v7) (V3 m ρ c main_v6) :=
    (W4_arr m ρ c 2).trans (ProjValue.arr_proj (V3 m ρ) c)
  show StableHlo.after hostOps1 (W4 m ρ c) (Proc.devRef .tc main_v9) = _
  simp only [hostOps1]
  after_results
  show shapeCast S64x576x4 (W4 m ρ c (Proc.devRef .tc main_v8) : S36864x4.Idx → EReal) shapeCasts_S36864x4_S64x576x4 = _
  rw [e]

/-- The program's result: the second region's array with its last two axes swapped back. -/
theorem v11_exit (c : Dev nD) (G : S64x2x4096.Idx → EReal) (hg : (dat1 (F := Ideal) (V5 m ρ) c).arrAt 3 cfg1.N = G) :
    (W7 m ρ c (Proc.devRef .tc main_v11) : S64x4096x2.Idx → EReal)
      = transpose S64x4096x2 [0, 2, 1] G transposes_S64x2x4096_S64x4096x2_0_2_1 := by
  have e : (W6 m ρ c (Proc.devRef .tc main_v10) : S64x2x4096.Idx → EReal) = G := (W6_arr m ρ c 3).trans hg
  show StableHlo.after hostOps2 (W6 m ρ c) (Proc.devRef .tc main_v11) = _
  simp only [hostOps2]
  after_results
  rw [e]

/-! ## The layout operations at an index -/

/-- Row `576 b + n` of the flattened input is row `n` of batch `b`. -/
theorem flat_apply (z : S64x576x384.Idx → EReal) (b : Fin 64) (n : Fin 576) (d : Fin 384) :
    shapeCast S36864x384 z shapeCasts_S64x576x384_S36864x384 (ix2 ⟨576 * b.val + n.val, by have := b.isLt; have := n.isLt; omega⟩ d) = z (ix3 b n d) := by
  refine shapeCast_apply z _ _ (ix3 b n d) ?_
  rw [Shape.rowMajor_val_three, Shape.rowMajor_val_two]
  show (b.val * 576 + n.val) * 384 + d.val = (576 * b.val + n.val) * 384 + d.val
  omega

/-- Entry (b, n, j) of the product viewed 64 × 576 × 4 is its row `576 b + n`. -/
theorem unflat_apply (y : S36864x4.Idx → EReal) (b : Fin 64) (n : Fin 576) (j : Fin 4) :
    shapeCast S64x576x4 y shapeCasts_S36864x4_S64x576x4 (ix3 b n j) = y (ix2 ⟨576 * b.val + n.val, by have := b.isLt; have := n.isLt; omega⟩ j) := by
  refine shapeCast_apply y _ _ _ ?_
  rw [Shape.rowMajor_val_three, Shape.rowMajor_val_two]
  show (576 * b.val + n.val) * 4 + j.val = (b.val * 576 + n.val) * 4 + j.val
  omega

/-- Column `t` of the weight table is row `t` of the weight matrix's first half. -/
theorem table_lo (W : S2x768.Idx → EReal) (d : Fin 384) (t : Fin 2) :
    concatenate S384x4 1
        [⟨S384x2, transpose S384x2 [1, 0] (extractStridedSlice S2x384 ![0, 0] W slices_S2x768_S2x384_0_0) transposes_S2x384_S384x2_1_0⟩,
         ⟨S384x2, transpose S384x2 [1, 0] (extractStridedSlice S2x384 ![0, 384] W slices_S2x768_S2x384_0_384) transposes_S2x384_S384x2_1_0⟩]
        concatenates_S384x2_S384x2_S384x4_d1 (ix2 d ⟨t.val, by have := t.isLt; omega⟩)
      = W (ix2 t ⟨d.val, by have := d.isLt; omega⟩) := by
  refine (concatenate_pair_apply_left (t := S384x4) (s₁ := S384x2) (s₂ := S384x2) 1 _ _ concatenates_S384x2_S384x2_S384x4_d1 _ rfl (ix2 d t) ?_).trans ?_
  · intro a; match a with
    | ⟨0, _⟩ => rfl
    | ⟨1, _⟩ => rfl
  refine (transpose_apply [1, 0] _ transposes_S2x384_S384x2_1_0 (ix2 d t) (ix2 t d) ?_).trans ?_
  · intro a; match a with
    | ⟨0, _⟩ => rfl
    | ⟨1, _⟩ => rfl
  refine extractStridedSlice_apply ![0, 0] W slices_S2x768_S2x384_0_0 (ix2 t d) _ ?_
  intro a; match a with
  | ⟨0, _⟩ => show t.val = 0 + t.val; omega
  | ⟨1, _⟩ => show d.val = 0 + d.val; omega

/-- Column `2 + t` of the weight table is row `t` of the weight matrix's second half. -/
theorem table_hi (W : S2x768.Idx → EReal) (d : Fin 384) (t : Fin 2) :
    concatenate S384x4 1
        [⟨S384x2, transpose S384x2 [1, 0] (extractStridedSlice S2x384 ![0, 0] W slices_S2x768_S2x384_0_0) transposes_S2x384_S384x2_1_0⟩,
         ⟨S384x2, transpose S384x2 [1, 0] (extractStridedSlice S2x384 ![0, 384] W slices_S2x768_S2x384_0_384) transposes_S2x384_S384x2_1_0⟩]
        concatenates_S384x2_S384x2_S384x4_d1 (ix2 d ⟨2 + t.val, by have := t.isLt; omega⟩)
      = W (ix2 t ⟨384 + d.val, by have := d.isLt; omega⟩) := by
  refine (concatenate_pair_apply_right (t := S384x4) (s₁ := S384x2) (s₂ := S384x2) 1 _ _ concatenates_S384x2_S384x2_S384x4_d1 _ rfl rfl (ix2 d t) ?_ ?_).trans ?_
  · intro a ha; match a with
    | ⟨0, _⟩ => rfl
    | ⟨1, _⟩ => exact absurd rfl ha
  · show t.val + 2 = 2 + t.val; omega
  refine (transpose_apply [1, 0] _ transposes_S2x384_S384x2_1_0 (ix2 d t) (ix2 t d) ?_).trans ?_
  · intro a; match a with
    | ⟨0, _⟩ => rfl
    | ⟨1, _⟩ => rfl
  refine extractStridedSlice_apply ![0, 384] W slices_S2x768_S2x384_0_384 (ix2 t d) _ ?_
  intro a; match a with
  | ⟨0, _⟩ => show t.val = 0 + t.val; omega
  | ⟨1, _⟩ => show 384 + d.val = 384 + d.val; rfl

/-- The index word the second region finds at (b, e, k) is the clamp of pair `k`'s member `e`. -/
theorem idxT_apply (c : Dev nD) (b : Fin 64) (e : Fin 2) (k : Fin 4096) :
    (V5 m ρ c main_v1 : S64x2x4096.Idx → BitVec 32) (ix3 b e k)
      = clipW ((m ((c : Thread nD τ).loc main_arg1) : S64x4096x2.Idx → BitVec 32) (ix3 b k e)) := by
  rw [v1_carried, v1_entry]
  refine (transpose_apply [0, 2, 1] _ transposes_S64x4096x2_S64x2x4096_0_2_1 (ix3 b e k) (ix3 b k e) ?_).trans ?_
  · intro a; match a with
    | ⟨0, _⟩ => rfl
    | ⟨1, _⟩ => rfl
    | ⟨2, _⟩ => rfl
  rfl

/-! ## The kernel program's result -/

/-- The argument arrays and the arrays the second region finds, at their literal types. -/
abbrev zArr (c : Dev nD) : S64x576x384.Idx → EReal := m ((c : Thread nD τ).loc main_arg0)
abbrev idxArr (c : Dev nD) : S64x4096x2.Idx → BitVec 32 := m ((c : Thread nD τ).loc main_arg1)
abbrev wArr (c : Dev nD) : S2x768.Idx → EReal := m ((c : Thread nD τ).loc main_arg2)
abbrev bArr (c : Dev nD) : S2.Idx → EReal := m ((c : Thread nD τ).loc main_arg3)
abbrev yArr (c : Dev nD) : S64x576x4.Idx → EReal := V5 m ρ c main_v9
abbrev ixArr (c : Dev nD) : S64x2x4096.Idx → BitVec 32 := V5 m ρ c main_v1
abbrev b5Arr (c : Dev nD) : S2.Idx → EReal := V5 m ρ c main_arg3

theorem yArr_eq (c : Dev nD) :
    yArr m ρ c = shapeCast S64x576x4 (proj (shapeCast S36864x384 (zArr m c) shapeCasts_S64x576x384_S36864x384)
      (concatenate S384x4 1
          [⟨S384x2, transpose S384x2 [1, 0] (extractStridedSlice S2x384 ![0, 0] (wArr m c) slices_S2x768_S2x384_0_0) transposes_S2x384_S384x2_1_0⟩,
           ⟨S384x2, transpose S384x2 [1, 0] (extractStridedSlice S2x384 ![0, 384] (wArr m c) slices_S2x768_S2x384_0_384) transposes_S2x384_S384x2_1_0⟩]
          concatenates_S384x2_S384x2_S384x4_d1)) shapeCasts_S36864x4_S64x576x4 := by
  show (V5 m ρ c main_v9 : S64x576x4.Idx → EReal) = _
  rw [v9_entry, v7_entry, v6_entry]

theorem ixArr_apply (c : Dev nD) (b : Fin 64) (e : Fin 2) (k : Fin 4096) :
    ixArr m ρ c (ix3 b e k) = clipW (idxArr m c (ix3 b k e)) := idxT_apply m ρ c b e k

theorem b5Arr_eq (c : Dev nD) : b5Arr m ρ c = bArr m c := arg3_carried m ρ c

/-- Entry (b, r, t) of the product the second region finds: row `r` of batch `b` against row `t` of the weight
    matrix's first half. -/
theorem y_lo (c : Dev nD) (b : Fin 64) (r : Fin 576) (t : Fin 2) :
    yArr m ρ c (ix3 b r ⟨t.val, by have := t.isLt; omega⟩)
      = ∑ d : Fin 384, zArr m c (ix3 b r d) * wArr m c (ix2 t ⟨d.val, by have := d.isLt; omega⟩) := by
  rw [yArr_eq]
  refine (unflat_apply _ b r _).trans ?_
  unfold proj
  refine Finset.sum_congr rfl fun d _ => ?_
  exact congrArg₂ (· * ·) (flat_apply _ b r d) (table_lo _ d t)

/-- Entry (b, r, 2 + t): the same row against row `t` of the weight matrix's second half. -/
theorem y_hi (c : Dev nD) (b : Fin 64) (r : Fin 576) (t : Fin 2) :
    yArr m ρ c (ix3 b r ⟨2 + t.val, by have := t.isLt; omega⟩)
      = ∑ d : Fin 384, zArr m c (ix3 b r d) * wArr m c (ix2 t ⟨384 + d.val, by have := d.isLt; omega⟩) := by
  rw [yArr_eq]
  refine (unflat_apply _ b r _).trans ?_
  unfold proj
  refine Finset.sum_congr rfl fun d _ => ?_
  exact congrArg₂ (· * ·) (flat_apply _ b r d) (table_hi _ d t)

/-- The result buffer after the run, given what the second region leaves in its array: `pairHead` of the argument
    arrays. Each indicator sum picks the row its clamped index word names, and that row is `rowOf` of the word. -/
theorem result_eq (c : Dev nD)
    (hg : (dat1 (F := Ideal) (V5 m ρ) c).arrAt 3 cfg1.N = gath (V5 m ρ c main_v9) (V5 m ρ c main_v1) (V5 m ρ c main_arg3)) :
    (W7 m ρ c (Proc.devRef .tc main_v11) : S64x4096x2.Idx → EReal)
      = pairHead (m ((c : Thread nD τ).loc main_arg0)) (m ((c : Thread nD τ).loc main_arg1))
          (m ((c : Thread nD τ).loc main_arg2)) (m ((c : Thread nD τ).loc main_arg3)) := by
  rw [v11_exit m ρ c _ hg]
  funext i
  obtain ⟨b, k, t, rfl⟩ : ∃ (b : Fin 64) (k : Fin 4096) (t : Fin 2), i = ix3 b k t := ⟨i 0, i 1, i 2, eq_ix3 i⟩
  refine (transpose_apply [0, 2, 1] _ transposes_S64x2x4096_S64x4096x2_0_2_1 (ix3 b k t) (ix3 b t k) ?_).trans ?_
  · intro a; match a with
    | ⟨0, _⟩ => rfl
    | ⟨1, _⟩ => rfl
    | ⟨2, _⟩ => rfl
  have h0 : (ixArr m ρ c (ix3 b (0 : Fin 2) k)).toNat = (rowOf (idxArr m c (ix3 b k (0 : Fin 2)))).val := by
    rw [ixArr_apply, clipW_toNat]
  have h1 : (ixArr m ρ c (ix3 b (1 : Fin 2) k)).toNat = (rowOf (idxArr m c (ix3 b k (1 : Fin 2)))).val := by
    rw [ixArr_apply, clipW_toNat]
  show ((∑ n : Fin 576, yArr m ρ c (ix3 b n ⟨t.val, _⟩) * hot n (ixArr m ρ c (ix3 b (0 : Fin 2) k)))
      + (∑ n : Fin 576, yArr m ρ c (ix3 b n ⟨2 + t.val, _⟩) * hot n (ixArr m ρ c (ix3 b (1 : Fin 2) k))))
      + b5Arr m ρ c (ix1 t)
    = ((∑ d : Fin 384, zArr m c (ix3 b (rowOf (idxArr m c (ix3 b k (0 : Fin 2)))) d) * wArr m c (ix2 t ⟨d.val, _⟩))
      + (∑ d : Fin 384, zArr m c (ix3 b (rowOf (idxArr m c (ix3 b k (1 : Fin 2)))) d) * wArr m c (ix2 t ⟨384 + d.val, _⟩)))
      + bArr m c (ix1 t)
  rw [sum_mul_hot (fun n => yArr m ρ c (ix3 b n ⟨t.val, _⟩)) _ _ h0, sum_mul_hot (fun n => yArr m ρ c (ix3 b n ⟨2 + t.val, _⟩)) _ _ h1,
    b5Arr_eq, y_lo, y_hi]

end Cert.KernelIdeal.HostValue

end
-- ==== Proof.RefValue.lean ====
/-
  The reference read at an index. It flattens the pair axis of the index array, takes rows of the input along the
  patch axis, views each pair's two rows as one row of 768 columns, multiplies by the weight matrix over those
  columns and adds the bias. Its take wraps a negative index word by 576, reads the row through a clamping gather,
  and replaces the row by a constant where the wrapped word is outside [0, 575]; for index words in [0, 576) the
  wrap is the identity, the replacement never happens and the gather reads the row the word names. Column
  `384 e + d` of a pair's row is column `d` of the row its member `e` names, so the 768-term product splits into
  the two 384-term products of `pairHead`.
-/
import proofs.«407798_j70875550318749_3_alg».proof.Proof.RefRead
import proofs.«407798_j70875550318749_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.ReadP Cert.PairHead

/-- One index word in range: it is not negative, it is at least 0 and at most 575 as a signed word. -/
theorem word_facts (v : BitVec 32) (h0 : 0 ≤ v.toInt) (h1 : v.toInt < 576) :
    IntOp.cmpi .slt v 0#32 = 0#1 ∧ IntOp.cmpi .sge v 0#32 = 1#1 ∧ IntOp.cmpi .sle v 575#32 = 1#1 := by
  have e0 : (0#32 : BitVec 32).toInt = 0 := by decide
  have e575 : (575#32 : BitVec 32).toInt = 575 := by decide
  refine ⟨?_, ?_, ?_⟩
  · show BitVec.ofBool (v.slt 0#32) = 0#1
    have : v.slt 0#32 = false := by
      rw [BitVec.slt, e0]; exact decide_eq_false (by omega)
    rw [this]; rfl
  · show BitVec.ofBool ((0#32 : BitVec 32).sle v) = 1#1
    have : (0#32 : BitVec 32).sle v = true := by
      rw [BitVec.sle, e0]; exact decide_eq_true (by omega)
    rw [this]; rfl
  · show BitVec.ofBool (v.sle 575#32) = 1#1
    have : v.sle 575#32 = true := by
      rw [BitVec.sle, e575]; exact decide_eq_true (by omega)
    rw [this]; rfl

/-- Under the range hypothesis the wrapped index word is the index word. -/
theorem wrapped_eq (idx : (⟨S64x4096x2, .i32⟩ : BufTy).Contents (Elt Ideal))
    (hidx : ∀ i, 0 ≤ (idx i).toInt ∧ (idx i).toInt < 576) (i : S64x8192x1.Idx) :
    val_main_call0_v4 (F := Ideal) idx i = idx (idx_main_v0 (idx_main_v1 i)) := by
  have hw := word_facts (idx (idx_main_v0 (idx_main_v1 i))) (hidx _).1 (hidx _).2
  rw [val_main_call0_v4_apply, val_main_call0_v1_apply, val_main_call0_v0_apply, val_main_call0_c_apply,
    val_main_v1_apply, val_main_v0_apply, hw.1, ValueIdx.select_zero]

/-- Under the range hypothesis the in-bounds mask is 1 everywhere. -/
theorem mask_eq_one (idx : (⟨S64x4096x2, .i32⟩ : BufTy).Contents (Elt Ideal))
    (hidx : ∀ i, 0 ≤ (idx i).toInt ∧ (idx i).toInt < 576) (i : S64x8192x1.Idx) :
    val_main_call0_v10 (F := Ideal) idx i = 1#1 := by
  have hw := word_facts (idx (idx_main_v0 (idx_main_v1 i))) (hidx _).1 (hidx _).2
  rw [val_main_call0_v10_apply, val_main_call0_v6_apply, val_main_call0_v9_apply, wrapped_eq idx hidx,
    val_main_call0_v5_apply, val_main_call0_c_2_apply, val_main_call0_v8_apply, val_main_call0_v7_apply,
    val_main_call0_c_1_apply, hw.2.1, hw.2.2]
  rfl

/-- A left fold by and, from 1, over words that are all 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- So the and-reduction of the mask over its last axis is 1 everywhere. -/
theorem reduced_eq_one (idx : (⟨S64x4096x2, .i32⟩ : BufTy).Contents (Elt Ideal))
    (hidx : ∀ i, 0 ≤ (idx i).toInt ∧ (idx i).toInt < 576) (j : S64x8192.Idx) :
    val_main_call0_v11 (F := Ideal) idx j = 1#1 := by
  unfold val_main_call0_v11
  rw [Host.reduce_eq_foldl]
  exact foldl_andi_one _ _ (fun n _ => mask_eq_one idx hidx n)

/-- The start-indices index a result index reads: its batch coordinates, 0 on the index vector's axis. -/
abbrev startAt (i : S64x8192x384.Idx) : S64x8192x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The batched gather read at a result index: batch coordinate on axis 0, the start index (read signed, clamped to
    the last row) on axis 1, the offset coordinate on axis 2. -/
theorem gather_apply {α : Type} (x : S64x576x384.Idx → α) (ids : IVec S64x8192x1 32) (i : S64x8192x384.Idx) :
    Host.gather gather_S64x576x384_S64x8192x1_S64x8192x384_2_1_0_0_1_2_11384 x ids i
      = x (ValueIdx.ix3 (n0 := 64) (n1 := 576) (n2 := 384) ⟨(i 0).val, (i 0).isLt⟩
          (rowOf (ids (startAt i))) ⟨(i 2).val, (i 2).isLt⟩) := by
  unfold Host.gather
  congr 1
  funext a
  refine Fin.ext ?_
  show gather_S64x576x384_S64x8192x1_S64x8192x384_2_1_0_0_1_2_11384.start i ids a
      + gather_S64x576x384_S64x8192x1_S64x8192x384_2_1_0_0_1_2_11384.batchCoord i a
      + gather_S64x576x384_S64x8192x1_S64x8192x384_2_1_0_0_1_2_11384.offCoord i a = _
  match a with
  | ⟨0, h⟩ =>
    have hb : (⟨0, h⟩ : Fin S64x576x384.rank) ∈ gather_S64x576x384_S64x8192x1_S64x8192x384_2_1_0_0_1_2_11384.operandBatchingDims :=
      List.mem_singleton.mpr rfl
    rw [GatherDims.start_batching _ _ _ _ hb,
      GatherDims.offCoord_eq_zero _ _ _ (fun hm => ((GatherDims.mem_sKept _ _).mp hm).2 hb)]
    unfold GatherDims.batchCoord
    rw [dif_pos hb]
    simp only [Nat.zero_add, Nat.add_zero]
    rfl
  | ⟨1, h⟩ =>
    have hc : (⟨1, h⟩ : Fin S64x576x384.rank) ∈ gather_S64x576x384_S64x8192x1_S64x8192x384_2_1_0_0_1_2_11384.collapsedSliceDims :=
      List.mem_singleton.mpr rfl
    have hnb : (⟨1, h⟩ : Fin S64x576x384.rank) ∉ gather_S64x576x384_S64x8192x1_S64x8192x384_2_1_0_0_1_2_11384.operandBatchingDims :=
      (by decide : (1 : Fin S64x576x384.rank) ∉ gather_S64x576x384_S64x8192x1_S64x8192x384_2_1_0_0_1_2_11384.operandBatchingDims)
    have hs : (⟨1, h⟩ : Fin S64x576x384.rank) ∈ gather_S64x576x384_S64x8192x1_S64x8192x384_2_1_0_0_1_2_11384.startIndexMap :=
      List.mem_singleton.mpr rfl
    rw [GatherDims.batchCoord_eq_zero _ _ _ hnb,
      GatherDims.offCoord_eq_zero _ _ _ (fun hm => ((GatherDims.mem_sKept _ _).mp hm).1 hc)]
    simp only [Nat.add_zero]
    unfold GatherDims.start
    rw [dif_pos hs]
    have hsi : gather_S64x576x384_S64x8192x1_S64x8192x384_2_1_0_0_1_2_11384.siIdx i
        ⟨List.idxOf (⟨1, h⟩ : Fin S64x576x384.rank) gather_S64x576x384_S64x8192x1_S64x8192x384_2_1_0_0_1_2_11384.startIndexMap,
          List.idxOf_lt_length_iff.2 hs⟩ = startAt i := by
      funext b; refine Fin.ext ?_
      match b with
      | ⟨0, _⟩ => rfl
      | ⟨1, _⟩ => rfl
      | ⟨2, _⟩ => rfl
    rw [hsi]
    rfl
  | ⟨2, h⟩ =>
    have hns : (⟨2, h⟩ : Fin S64x576x384.rank) ∉ gather_S64x576x384_S64x8192x1_S64x8192x384_2_1_0_0_1_2_11384.startIndexMap :=
      (by decide : (2 : Fin S64x576x384.rank) ∉ gather_S64x576x384_S64x8192x1_S64x8192x384_2_1_0_0_1_2_11384.startIndexMap)
    have hnb : (⟨2, h⟩ : Fin S64x576x384.rank) ∉ gather_S64x576x384_S64x8192x1_S64x8192x384_2_1_0_0_1_2_11384.operandBatchingDims :=
      (by decide : (2 : Fin S64x576x384.rank) ∉ gather_S64x576x384_S64x8192x1_S64x8192x384_2_1_0_0_1_2_11384.operandBatchingDims)
    have hk : (⟨2, h⟩ : Fin S64x576x384.rank) ∈ gather_S64x576x384_S64x8192x1_S64x8192x384_2_1_0_0_1_2_11384.sKept :=
      (by decide : (2 : Fin S64x576x384.rank) ∈ gather_S64x576x384_S64x8192x1_S64x8192x384_2_1_0_0_1_2_11384.sKept)
    rw [GatherDims.batchCoord_eq_zero _ _ _ hnb]
    unfold GatherDims.start GatherDims.offCoord
    rw [dif_neg hns, dif_pos hk]
    simp only [Nat.zero_add, Nat.add_zero]
    rfl

/-- The gathered array under the range hypothesis: the row the index word names, with no replacement. -/
theorem v2_eq (z : (⟨S64x576x384, .f32⟩ : BufTy).Contents (Elt Ideal)) (idx : (⟨S64x4096x2, .i32⟩ : BufTy).Contents (Elt Ideal))
    (hidx : ∀ i, 0 ≤ (idx i).toInt ∧ (idx i).toInt < 576) (j : S64x8192x384.Idx) :
    val_main_v2 (F := Ideal) z idx j
      = z (ValueIdx.ix3 (n0 := 64) (n1 := 576) (n2 := 384) ⟨(j 0).val, (j 0).isLt⟩
          (rowOf (idx (idx_main_v0 (idx_main_v1 (startAt j))))) ⟨(j 2).val, (j 2).isLt⟩) := by
  rw [val_main_v2_apply, val_main_call0_v13_apply, reduced_eq_one idx hidx, ValueIdx.select_one]
  unfold val_main_call0_v12
  rw [gather_apply, wrapped_eq idx hidx]

/-- Column k = 384·e + d of the pair array is column d of the row that member e of the pair names. -/
theorem term_eq (z : (⟨S64x576x384, .f32⟩ : BufTy).Contents (Elt Ideal)) (idx : (⟨S64x4096x2, .i32⟩ : BufTy).Contents (Elt Ideal))
    (hidx : ∀ i, 0 ≤ (idx i).toInt ∧ (idx i).toInt < 576) (i : S64x4096x2.Idx) (k : Fin 768) (e : Fin 2) (d : Fin 384)
    (hk : k.val = 384 * e.val + d.val) :
    val_main_v3 (F := Ideal) z idx (lidx_main_v4 i k)
      = z (ValueIdx.ix3 (n0 := 64) (n1 := 576) (n2 := 384) (i 0)
          (rowOf (idx (ValueIdx.ix3 (n0 := 64) (n1 := 4096) (n2 := 2) (i 0) (i 1) e))) d) := by
  have h0 : (i 0).val < 64 := (i 0).isLt
  have h1 : (i 1).val < 4096 := (i 1).isLt
  have he : e.val < 2 := e.isLt
  have hd : d.val < 384 := d.isLt
  have hj0 : (idx_main_v3 (lidx_main_v4 i k) 0).val = (i 0).val := by
    show (((i 0).val * 4096 + (i 1).val) * 768 + k.val) / 3145728 = (i 0).val
    omega
  have hj1 : (idx_main_v3 (lidx_main_v4 i k) 1).val = 2 * (i 1).val + e.val := by
    show (((i 0).val * 4096 + (i 1).val) * 768 + k.val) / 384 % 8192 = 2 * (i 1).val + e.val
    omega
  have hj2 : (idx_main_v3 (lidx_main_v4 i k) 2).val = d.val := by
    show (((i 0).val * 4096 + (i 1).val) * 768 + k.val) % 384 = d.val
    omega
  rw [val_main_v3_apply, v2_eq z idx hidx]
  generalize idx_main_v3 (lidx_main_v4 i k) = j at hj0 hj1 hj2 ⊢
  have e1 : idx_main_v0 (idx_main_v1 (startAt j)) = ValueIdx.ix3 (n0 := 64) (n1 := 4096) (n2 := 2) (i 0) (i 1) e :=
    funext fun a => Fin.ext (by
      match a with
      | ⟨0, _⟩ => show ((j 0).val * 8192 + (j 1).val) / 8192 = (i 0).val; omega
      | ⟨1, _⟩ => show ((j 0).val * 8192 + (j 1).val) / 2 % 4096 = (i 1).val; omega
      | ⟨2, _⟩ => show ((j 0).val * 8192 + (j 1).val) % 2 = e.val; omega)
  rw [e1]
  congr 1
  funext a
  refine Fin.ext ?_
  match a with
  | ⟨0, _⟩ => exact hj0
  | ⟨1, _⟩ => rfl
  | ⟨2, _⟩ => exact hj2

/-- A sum over 768 columns is the sum over the first 384 plus the sum over the last 384. -/
theorem sum_split (f : Fin 768 → EReal) :
    ∑ k : Fin 768, f k
      = (∑ d : Fin 384, f ⟨d.val, by have := d.isLt; omega⟩) + ∑ d : Fin 384, f ⟨384 + d.val, by have := d.isLt; omega⟩ :=
  Fin.sum_univ_add (M := EReal) (a := 384) (b := 384) f

theorem ref_eq (z : (⟨S64x576x384, .f32⟩ : BufTy).Contents (Elt Ideal)) (idx : (⟨S64x4096x2, .i32⟩ : BufTy).Contents (Elt Ideal))
    (W : (⟨S2x768, .f32⟩ : BufTy).Contents (Elt Ideal)) (bias : (⟨S2, .f32⟩ : BufTy).Contents (Elt Ideal))
    (hidx : ∀ i, 0 ≤ (idx i).toInt ∧ (idx i).toInt < 576) :
    val_main_v7 (F := Ideal) z idx W bias = pairHead z idx W bias := by
  funext i
  rw [val_main_v7_apply, val_main_v4_apply, val_main_v6_apply, val_main_v5_apply, sum_split]
  have eb : idx_main_v5 (idx_main_v6 i) = ValueIdx.ix1 (n := 2) (i 2) :=
    funext fun a => Fin.ext (by match a with | ⟨0, _⟩ => rfl)
  rw [eb]
  unfold pairHead
  refine congrArg₂ (· + ·) (congrArg₂ (· + ·) (Finset.sum_congr rfl fun d _ => ?_) (Finset.sum_congr rfl fun d _ => ?_)) rfl
  · rw [term_eq z idx hidx i ⟨d.val, by have := d.isLt; omega⟩ 0 d (by show d.val = 384 * 0 + d.val; omega)]
    congr 2
    funext a
    refine Fin.ext ?_
    match a with
    | ⟨0, _⟩ => rfl
    | ⟨1, _⟩ => rfl
  · rw [term_eq z idx hidx i ⟨384 + d.val, by have := d.isLt; omega⟩ 1 d (by show 384 + d.val = 384 * 1 + d.val; omega)]
    congr 2
    funext a
    refine Fin.ext ?_
    match a with
    | ⟨0, _⟩ => rfl
    | ⟨1, _⟩ => rfl

end Cert.ReferenceIdeal.RefValue

end
-- ==== Proof.PreRange.lean ====
/-
  The precondition, decoded. The printed predicate is a conjunction of four one-bit scalars; the last is the
  and-reduction, over every index, of the bit "0 ≤ idx[i] and idx[i] < 576" (both compares signed). The
  conjunction being 1 makes its last conjunct 1; an and-reduction over all axes that is 1 met a 1 at every
  index; and a 1 there says both compares hold of the word at that index, read signed. The three conjuncts
  about the float inputs are not used.
-/
import proofs.«407798_j70875550318749_3_alg».proof.Pre_finite_inputs
import proofs.«407798_j70875550318749_3_alg».proof.Proof.Gen.Pre_finite_inputs
import Idealize.ShloMosaic.PureOps.Ideal
import Idealize.ShloMosaic.Lib.ReduceAll
import Idealize.ShloMosaic.Lib.StableHlo.Predicate

noncomputable section

open Idealize.ShloMosaic

namespace Cert.Pre_finite_inputs.Range

open Cert.Pre_finite_inputs

variable [Cert.Pre_finite_inputs.Facts]

/-- A rank-0 shape has one index. -/
instance subsingleton_S_ : Subsingleton S_.Idx := ⟨fun a b => funext fun d => d.elim0⟩

/-- A one-bit conjunction that is 1 has its right conjunct 1. -/
theorem andi_right {c d : BitVec 1} (e : IntOp.andi c d = 1#1) : d = 1#1 := (IntOp.andi_eq_one.1 e).2

/-- The two signed compares, read as integer inequalities against the literals 0 and 576. -/
theorem word_range (v : BitVec 32) (h0 : IntOp.cmpi .sge v 0#32 = 1#1) (h1 : IntOp.cmpi .slt v 576#32 = 1#1) :
    0 ≤ v.toInt ∧ v.toInt < 576 := by
  have a := IntOp.cmpi_sge.1 h0
  have b := IntOp.cmpi_slt.1 h1
  have e0 : (0#32 : BitVec 32).toInt = 0 := by decide
  have e1 : (576#32 : BitVec 32).toInt = 576 := by decide
  rw [e0] at a
  rw [e1] at b
  exact ⟨a, b⟩

theorem range_of_pre {F : FTy → Type} [FloatOps F] (z : FVec F S64x576x384 .f32) (idx : IVec S64x4096x2 32) (W : FVec F S2x768 .f32) (bias : FVec F S2 .f32)
    (h : Cert.Pre_finite_inputs.fn (F := F) z idx W bias = fun _ => 1#1) :
    ∀ i : S64x4096x2.Idx, 0 ≤ (idx i).toInt ∧ (idx i).toInt < 576 := by
  intro i
  -- the predicate's one value
  have h0 := congrFun h (fun a => a.elim0)
  dsimp only [fn, fn_part1] at h0
  -- its last conjunct: the and-reduction of the range bits
  have h1 := andi_right h0
  -- every range bit is 1
  have h2 := Host.reduce_andi_all _ _ _ _ _ h1 i
  -- the bit at i is the conjunction of the two compares of the word at i against the broadcast literals
  obtain ⟨ha, hb⟩ := IntOp.andi_eq_one.1 h2
  exact word_range (idx i) ha hb

end Cert.Pre_finite_inputs.Range

end
-- ==== Proof.lean ====
/-
  The kernel gathers pairs of patch embeddings by index and applies a linear head with a bias; the reference does
  the same with a take-along-axis gather and one matrix product over the concatenated pair. Over the extended reals,
  for index words in [0, 576), both programs end with

      out[b, k, t] = Σ_d z[b, r₀, d] · W[t, d] + Σ_d z[b, r₁, d] · W[t, 384 + d] + bias[t],

  r₀ and r₁ the rows pair k's two index words name (`Cert.PairHead.pairHead`), and with the index array returned
  unchanged. The kernel program reaches it in two stages — the flattened input projected through the 384 × 4 table
  of the weight matrix's two transposed halves, then per pair a sum of each table row against the indicator of its
  clamped index word — and the reference by splitting its 768-term products into the pair's two members. The range
  of the index words is part of the precondition: outside it the reference wraps a negative index and fills a row
  past the end with a constant, where the kernel clamps.
  The three frames: the two kernel programs' are the generated frame certificates, the reference's is its run with
  the result dropped. The idealization rewrote no operation, so `preserves` is trivial.
-/
import proofs.«407798_j70875550318749_3_alg».proof.Defs
import proofs.«407798_j70875550318749_3_alg».proof.Proof.Gen.Kernel
import proofs.«407798_j70875550318749_3_alg».proof.Proof.Gen.Kernel.Skeleton
import proofs.«407798_j70875550318749_3_alg».proof.Proof.Gen.Kernel.Launch
import proofs.«407798_j70875550318749_3_alg».proof.Proof.Gen.Kernel.Points
import proofs.«407798_j70875550318749_3_alg».proof.Proof.Gen.Kernel.Frame
import proofs.«407798_j70875550318749_3_alg».proof.Proof.Gen.KernelIdeal
import proofs.«407798_j70875550318749_3_alg».proof.Proof.Gen.KernelIdeal.Skeleton
import proofs.«407798_j70875550318749_3_alg».proof.Proof.Gen.KernelIdeal.Launch
import proofs.«407798_j70875550318749_3_alg».proof.Proof.Gen.KernelIdeal.Points
import proofs.«407798_j70875550318749_3_alg».proof.Proof.Gen.KernelIdeal.Frame
import proofs.«407798_j70875550318749_3_alg».proof.Proof.Gen.ReferenceIdeal
import proofs.«407798_j70875550318749_3_alg».proof.Proof.Gen.Pre_finite_inputs
import proofs.«407798_j70875550318749_3_alg».proof.Proof.RefRun
import proofs.«407798_j70875550318749_3_alg».proof.Proof.RefRead
import proofs.«407798_j70875550318749_3_alg».proof.Proof.KernelRun
import proofs.«407798_j70875550318749_3_alg».proof.Proof.Spec
import proofs.«407798_j70875550318749_3_alg».proof.Proof.Proj
import proofs.«407798_j70875550318749_3_alg».proof.Proof.Gather
import proofs.«407798_j70875550318749_3_alg».proof.Proof.Host
import proofs.«407798_j70875550318749_3_alg».proof.Proof.RefValue
import proofs.«407798_j70875550318749_3_alg».proof.Proof.PreRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end at `pairHead` of the arguments, and with the index array as launched: the kernel program by its
    two stages and the host operations around them, the reference by its run read stage by stage, its index words in
    range by the precondition. -/
theorem algebraic : Cert.algebraic_KernelIdeal_ReferenceIdeal := by
  intro m ρ m' ρ' hpre hagree
  have hrange : ∀ c : Dev Cert.KernelIdeal.nD, ∀ i,
      0 ≤ ((m ((c.tc : Thread Cert.KernelIdeal.nD Cert.KernelIdeal.τ).loc Cert.KernelIdeal.main_arg1) : Cert.KernelIdeal.S64x4096x2.Idx → BitVec 32) i).toInt
        ∧ ((m ((c.tc : Thread Cert.KernelIdeal.nD Cert.KernelIdeal.τ).loc Cert.KernelIdeal.main_arg1) : Cert.KernelIdeal.S64x4096x2.Idx → BitVec 32) i).toInt < 576 :=
    fun c => Cert.Pre_finite_inputs.Range.range_of_pre _ _ _ _ (hpre c)
  refine ⟨fun c => Cert.PairHead.pairHead
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.RunValue.run_value (F := Ideal) m ρ)
    obtain ⟨h11, h0, h1, h2, h3⟩ := h c
    exact ⟨h11.trans (Cert.KernelIdeal.HostValue.result_eq m ρ c (Cert.KernelIdeal.GatherValue.arr_gath _ c)), h1, h0, h1, h2, h3⟩
  · refine (θ_run Cert.ReferenceIdeal.defs _ _).mono (fun r h c => ?_) (Cert.ReferenceIdeal.ValueP.run (F := Ideal) m' ρ')
    obtain ⟨h7, -, h0, h1, h2, h3⟩ := h c
    obtain ⟨a0, a1, a2, a3⟩ := hagree c
    refine ⟨h7.trans ((Cert.ReferenceIdeal.ReadP.val_main_v7_eq _ _ _ _).trans ?_), h1.trans a1, h0, h1, h2, h3⟩
    rw [a0, a1, a2, a3]
    exact Cert.ReferenceIdeal.RefValue.ref_eq _ _ _ _ (hrange c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
